-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024x4096 : Shape := ⟨2, ![1024, 4096]⟩
abbrev S1024x1024 : Shape := ⟨2, ![1024, 1024]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  transposes_S4096x1024_S1024x4096_1_0 : S4096x1024.Transposes [1, 0] S1024x4096
  reducesTo_S1024x1024_S1024_d0 : S1024x1024.ReducesTo [0] S1024
  bcast_S_S1024 : S_.BroadcastsInDim S1024 (![] : Fin 0 → Fin S1024.rank)
  reducesTo_S1024_S_d0 : S1024.ReducesTo [0] S_
  dot_S1024x4096_S4096x1024_S1024x1024_1_0_0_1_n_n_wf : DotDims.WF S1024x4096 S4096x1024 S1024x1024 [1] [0] [0] [1] [] []

variable [Facts]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def fn_part2 {F : FTy → Type} [FloatOps F] (main_arg2 : FVec F S4096x1024 .f32) (main_v33 : IVec S_ 1) : IVec S_ 1 :=
  let main_v34 : FVec F S1024x4096 .f32 := (transpose S1024x4096 [1, 0] · transposes_S4096x1024_S1024x4096_1_0) main_arg2
  let main_v35 : FVec F S1024x1024 .f32 := (fun l r => Host.dotGeneral dot_S1024x4096_S4096x1024_S1024x1024_1_0_0_1_n_n none l r) main_v34 main_arg2
  let main_v36 : FVec F S1024x1024 .f32 := Host.sqrt main_v35
  let main_cst_12 : FVec F S_ .f32 := constant S_ .f32 0x00000000#32
  let main_v37 : FVec F S1024 .f32 := (fun x v => Host.reduceAdd x v reducesTo_S1024x1024_S1024_d0 h_S_) main_v36 main_cst_12
  let main_cst_13 : FVec F S_ .f32 := constant S_ .f32 0x00000000#32
  let main_v38 : FVec F S1024 .f32 := broadcastInDim S1024 ![] bcast_S_S1024 main_cst_13
  let main_v39 : IVec S1024 1 := cmpf .une main_v37 main_v38
  let main_c_14 : IVec S_ 1 := constantI S_ 1 1#1
  let main_v40 : IVec S_ 1 := (fun x v => Host.reduce IntOp.andi x v reducesTo_S1024_S_d0 h_S_) main_v39 main_c_14
  let main_v41 : IVec S_ 1 := andi main_v33 main_v40
  main_v41

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S2000x256 : Shape := ⟨2, ![2000, 256]⟩
abbrev S2000x1024 : Shape := ⟨2, ![2000, 1024]⟩
abbrev S2000 : Shape := ⟨1, ![2000]⟩
abbrev S2000x1 : Shape := ⟨2, ![2000, 1]⟩

abbrev nBuf : Space → Nat
  | .hbm => 12
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1024x256, .f32⟩
  | .hbm, ⟨10, _⟩ => ⟨S1024x256, .f32⟩
  | .hbm, ⟨11, _⟩ => ⟨S10000x256, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x1024, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S2000x256, .f32⟩
  | .local _ .vmem, ⟨15, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S256_S1x256 : S256.ShapeCasts S1x256
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [0] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  shapeCasts_S1024x256_S1024x256 : S1024x256.ShapeCasts S1024x256
  reduces_S2000x1024_S2000 : S2000x1024.Reduces [1] S2000
  shapeCasts_S2000_S2000x1 : S2000.ShapeCasts S2000x1
  broadcasts_S2000x1_S2000x1024 : S2000x1.Broadcasts S2000x1024
  broadcasts_S2000x1_S2000x256 : S2000x1.Broadcasts S2000x256
  dot_S512x1024_S512x1024_S1024x1024_0_0_1_1_n_n_wf : DotDims.WF S512x1024 S512x1024 S1024x1024 [0] [0] [1] [1] [] []
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x256_S2000x256_1_0_0_1_n_n_wf : DotDims.WF S2000x1024 S1024x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x256.size a
  hwx0_5 : ∀ i : grid0.Coords, EltTy.bits .f32 = 32 ∨ (Rect.block (s := S1024x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .f32 = 32 ∨ (Rect.block (s := S1024x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S1024x256.size a
  hwx1_4 : ∀ i : grid1.Coords, EltTy.bits .f32 = 32 ∨ (Rect.block (s := S1024x256) S1024x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf

abbrev win0_0 : Pipeline.Window sig grid0 :=
  Pipeline.Window.ofSpec (Memref.whole main_arg2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1024x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.BitsR0Runs.lean ====
/-
  The Gram / key-projection kernel body, run once per control case.

  The body's three conditionals depend on the grid position i alone: the first chunk (i = 0) stores its Gram product
  into the accumulator, a later chunk (i > 0) adds its product to what the accumulator holds, and the last chunk
  (i = 7) also computes the mixed rows and the key projection into the two outputs. So a point is in one of three
  cases: A (i = 0), B (0 < i < 7), C (i = 7). For each case the body is run symbolically on whole staging buffers; what
  the run stores, as lists of pieces, is its witness.
-/
import proofs.«157675_g52209622450808_cont_9to1_m_767_6_alg».proof.Proof.Gen.Kernel.Launch
import proofs.«157675_g52209622450808_cont_9to1_m_767_6_alg».proof.Proof.Gen.Kernel.Skeleton
import proofs.«157675_g52209622450808_cont_9to1_m_767_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The three conditions, decided over the grid -/

/-- "This is the first chunk." -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is a later chunk." -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ t.val ≠ 0 :=
  (by decide +kernel : ∀ t : Fin grid0.N, cond0_1 (grid0.coords t) ↔ t.val ≠ 0)

/-- "This is the last chunk." -/
abbrev cond0_2 (i : grid0.Coords) : Prop := k0_cond3 i = 1#1
theorem hcond0_2 : ∀ t : Fin cfg0.N, cond0_2 (grid0.coords t) ↔ t.val = 7 :=
  (by decide +kernel : ∀ t : Fin grid0.N, cond0_2 (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last chunk the two outputs are idle and not written back. -/
theorem idleAt0_4 : ∀ t : Fin cfg0.N, ¬cond0_2 (grid0.coords t) → cfg0.idle 4 (grid0.coords t) = true := by decide +kernel
theorem noFlush0_4 : ∀ t : Fin cfg0.N, ¬cond0_2 (grid0.coords t) → (cfg0.win 4).flush t = false := by decide +kernel
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
/-- At the last chunk they are live. -/
theorem liveAt0_4 : ∀ t : Fin cfg0.N, cond0_2 (grid0.coords t) → cfg0.idle 4 (grid0.coords t) = false := by decide +kernel
theorem liveAt0_5 : ∀ t : Fin cfg0.N, cond0_2 (grid0.coords t) → cfg0.idle 5 (grid0.coords t) = false := by decide +kernel

/-! ## The staging memrefs at a point, the accumulator, and the views contents are stated through -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S1024x1024 .f32 := Memref.whole cc0_scratch0
abbrev VS0_0 : View sig .tc .vmem S1024x1024 .f32 := scM0_0.view
abbrev VO0_4 : View sig .tc .vmem S1024x256 .f32 := (Memref.whole cc0_stg4_0 : Memref sig .tc .vmem S1024x256 .f32).view
abbrev VO0_5 : View sig .tc .vmem S1024x256 .f32 := (Memref.whole cc0_stg5_0 : Memref sig .tc .vmem S1024x256 .f32).view

/-! ## The runs -/

set_option maxHeartbeats 4000000 in
/-- Case A, the first chunk: the inputs at their contents, the two outputs handed back untouched, the accumulator at
    anything; afterwards the accumulator holds the run's pieces. -/
noncomputable def kernelRun0_A (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (x1 : Vec F S1024x256 .f32) (x2 : Vec F S256x256 .f32) (x3 : Vec F S1x256 .f32) :
    { LS0 : List (View.Piece (Elt F) S1024x1024 .f32) //
      ∀ (xi4 xi5 : Vec F S1024x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun xi4 xi5 E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- Case B, a middle chunk: as case A, but the accumulator is found at what the chunk before left (`xs0`). -/
noncomputable def kernelRun0_B (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (x1 : Vec F S1024x256 .f32) (x2 : Vec F S256x256 .f32) (x3 : Vec F S1x256 .f32) (xs0 : Vec F S1024x1024 .f32) :
    { LS0 : List (View.Piece (Elt F) S1024x1024 .f32) //
      ∀ (xi4 xi5 : Vec F S1024x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun xi4 xi5 E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 8000000 in
/-- Case C, the last chunk: the accumulator is found at what the chunk before left, the two outputs at anything;
    afterwards each output and the accumulator hold the run's pieces. -/
noncomputable def kernelRun0_C (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    Σ' (L4 : List (View.Piece (Elt F) S1024x256 .f32)) (L5 : List (View.Piece (Elt F) S1024x256 .f32)), { LS0 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, ?_, ?_, fun E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel.Hand

end
-- ==== Proof.BitsRegion0.lean ====
/-
  The first pallas_call (Gram accumulation, mixed rows, key projection) as a pipeline: what each buffer holds after
  each grid point, the invariant that carries the accumulator from one point to the next, and the body obligation.

  After point n the accumulator holds what that point's case stored: the first chunk's product at n = 0, and at a later
  point what the point before left plus this chunk's product. The two outputs are stored at the last point only; before
  it their buffers are idle and are not written back, so what is recorded for them there is a placeholder nobody reads.
-/
import proofs.«157675_g52209622450808_cont_9to1_m_767_6_alg».proof.Proof.BitsR0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of the core's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The placeholder recorded for an output at a point where it is idle. -/
def idle0_4 : Vec F S1024x256 .f32 := VO0_4.read (Elt F) VO0_4.junk
def idle0_5 : Vec F S1024x256 .f32 := VO0_5.read (Elt F) VO0_5.junk

theorem scover0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (x1 : Vec F S1024x256 .f32) (x2 : Vec F S256x256 .f32) (x3 : Vec F S1x256 .f32) (y : S1024x1024.Idx) :
    ∃ pc ∈ (kernelRun0_A c i arg1 harg1 arg2 harg2 arg3 harg3 arg4 harg4 arg5 harg5 arg6 harg6 arg7 harg7 hc0 hc1 hc2 x0 x1 x2 x3).1, y ∈ pc.1.set :=
  View.cover_of_tiledL (kernelRun0_A c i arg1 harg1 arg2 harg2 arg3 harg3 arg4 harg4 arg5 harg5 arg6 harg6 arg7 harg7 hc0 hc1 hc2 x0 x1 x2 x3).1 S1024x1024.size (by sl_kernel_rfl) y

/-- What the first chunk leaves in the accumulator. -/
def sout0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (x1 : Vec F S1024x256 .f32) (x2 : Vec F S256x256 .f32) (x3 : Vec F S1x256 .f32) : Vec F S1024x1024 .f32 :=
  VS0_0.read (Elt F) (VS0_0.writes (Elt F) VS0_0.junk (kernelRun0_A c i arg1 harg1 arg2 harg2 arg3 harg3 arg4 harg4 arg5 harg5 arg6 harg6 arg7 harg7 hc0 hc1 hc2 x0 x1 x2 x3).1)

theorem scover0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (x1 : Vec F S1024x256 .f32) (x2 : Vec F S256x256 .f32) (x3 : Vec F S1x256 .f32) (xs0 : Vec F S1024x1024 .f32) (y : S1024x1024.Idx) :
    ∃ pc ∈ (kernelRun0_B c i arg1 harg1 arg2 harg2 arg3 harg3 arg4 harg4 arg5 harg5 arg6 harg6 arg7 harg7 hc0 hc1 hc2 x0 x1 x2 x3 xs0).1, y ∈ pc.1.set :=
  View.cover_of_tiledL (kernelRun0_B c i arg1 harg1 arg2 harg2 arg3 harg3 arg4 harg4 arg5 harg5 arg6 harg6 arg7 harg7 hc0 hc1 hc2 x0 x1 x2 x3 xs0).1 S1024x1024.size (by sl_kernel_rfl) y

/-- What a middle chunk leaves in the accumulator, over what it found there. -/
def sout0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (x1 : Vec F S1024x256 .f32) (x2 : Vec F S256x256 .f32) (x3 : Vec F S1x256 .f32) (xs0 : Vec F S1024x1024 .f32) : Vec F S1024x1024 .f32 :=
  VS0_0.read (Elt F) (VS0_0.writes (Elt F) VS0_0.junk (kernelRun0_B c i arg1 harg1 arg2 harg2 arg3 harg3 arg4 harg4 arg5 harg5 arg6 harg6 arg7 harg7 hc0 hc1 hc2 x0 x1 x2 x3 xs0).1)

theorem cover0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).1, y ∈ pc.1.set :=
  View.cover_of_tiledL (kernelRun0_C c i arg1 harg1 arg2 harg2 arg3 harg3 arg4 harg4 arg5 harg5 arg6 harg6 arg7 harg7 hc0 hc1 hc2 x0 x1 x2 x3 xs0).1 S1024x256.size (by sl_kernel_rfl) y

/-- What the last chunk leaves in the first output (the mixed rows). -/
def out0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_4.read (Elt F) (VO0_4.writes (Elt F) VO0_4.junk (kernelRun0_C c i arg1 harg1 arg2 harg2 arg3 harg3 arg4 harg4 arg5 harg5 arg6 harg6 arg7 harg7 hc0 hc1 hc2 x0 x1 x2 x3 xs0).1)

theorem cover0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.1 S1024x256.size (by sl_kernel_rfl) y

/-- What the last chunk leaves in the second output (the key projection). -/
def out0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_5.read (Elt F) (VO0_5.writes (Elt F) VO0_5.junk (kernelRun0_C c i arg1 harg1 arg2 harg2 arg3 harg3 arg4 harg4 arg5 harg5 arg6 harg6 arg7 harg7 hc0 hc1 hc2 x0 x1 x2 x3 xs0).2.1)

theorem scover0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x1024.Idx) :
    ∃ pc ∈ (kernelRun0_C c i arg1 harg1 arg2 harg2 arg3 harg3 arg4 harg4 arg5 harg5 arg6 harg6 arg7 harg7 hc0 hc1 hc2 x0 x1 x2 x3 xs0).2.2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.2.1 S1024x1024.size (by sl_kernel_rfl) y

/-- What the last chunk leaves in the accumulator. -/
def sout0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x1024 .f32 :=
  VS0_0.read (Elt F) (VS0_0.writes (Elt F) VS0_0.junk (kernelRun0_C c i arg1 harg1 arg2 harg2 arg3 harg3 arg4 harg4 arg5 harg5 arg6 harg6 arg7 harg7 hc0 hc1 hc2 x0 x1 x2 x3 xs0).2.2.1)

/-! ## What the buffers hold after each point -/

/-- After the body at position `n`: the two outputs' staging buffers and the accumulator. -/
def outsAt0 (c : Dev nD) : (n : ℕ) → n < cfg0.N → Vec F S1024x256 .f32 × Vec F S1024x256 .f32 × Vec F S1024x1024 .f32
  | 0, hn => (idle0_4, idle0_5,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (fun h => (hcond0_1 ⟨0, hn⟩).mp h rfl) (fun h => absurd ((hcond0_2 ⟨0, hn⟩).mp h) (show ¬ (0 : ℕ) = 7 by decide)) (iblk0 V c 0 ⟨0, hn⟩) (iblk0 V c 1 ⟨0, hn⟩) (iblk0 V c 2 ⟨0, hn⟩) (iblk0 V c 3 ⟨0, hn⟩))
  | n + 1, hn =>
    if h2 : n + 1 = 7 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
    else
      (idle0_4, idle0_5,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

/-- At the first point: the first chunk's contents. -/
theorem outsAt0_A (c : Dev nD) (t : Fin cfg0.N) (h0 : t.val = 0) :
    outsAt0 V c t.val t.isLt = (idle0_4, idle0_5,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => (hcond0_1 t).mp h h0) (fun h => absurd ((hcond0_2 t).mp h) (by omega)) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- At a middle point: over what the point before left. -/
theorem outsAt0_B (c : Dev nD) (t : Fin cfg0.N) (h0 : t.val ≠ 0) (h2 : t.val ≠ 7) :
    outsAt0 V c t.val t.isLt = (idle0_4, idle0_5,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd rfl h0
  | succ n => exact (dif_neg h2).trans rfl

/-- At the last point: over what the point before left. -/
theorem outsAt0_C (c : Dev nD) (t : Fin cfg0.N) (h0 : t.val ≠ 0) (h2 : t.val = 7) :
    outsAt0 V c t.val t.isLt =
      (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd rfl h0
  | succ n => exact (dif_pos h2).trans rfl

/-! ## The invariant between points -/

/-- The scoped buffers of the second pallas_call, each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region is entered with: the accumulator at anything, the other scoped buffers, the generator register. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

/-- The invariant before position `n`: before the first point what the region is entered with; afterwards the same
    with the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ otherScoped c) ∗ (∃ r, prngReg c r)) := by
  cases n with
  | zero => exact absurd rfl hz
  | succ n => rfl

/-! ## The proof data -/

/-- The first pipeline's proof data on core `c`: the arrays as the region finds them; after the body each input's
    buffer at its block, the outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
/-- The body at any point. The inputs' buffers hold their blocks; the point's position says which case it is in; the
    invariant hands the body the accumulator at what the point before left (at anything at the first point) and takes
    it back at this point's contents; where the outputs are idle their buffers pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val = 0
  · have hc2 : ¬cond0_2 (grid0.coords t) := fun h => absurd ((hcond0_2 t).mp h) (by omega)
    rw [Dat.leavesExact_idle (dat0 V c) 4 t (idleAt0_4 t hc2) (noFlush0_4 t hc2),
      Dat.leavesExact_idle (dat0 V c) 5 t (idleAt0_5 t hc2) (noFlush0_5 t hc2)]
    rw [outsAt0_A V c t h0]
    unfold sout0_A_0; (try dsimp only)
    rw [PhiS_castSucc V c t, PhiS_zero V c _ _ h0, PhiA0_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => (hcond0_1 t).mp h h0) hc2 (iblk0 V c 0 t) (iblk0 V c 1 t) (iblk0 V c 2 t) (iblk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h2 : t.val = 7
    · have hc2 : cond0_2 (grid0.coords t) := (hcond0_2 t).mpr h2
      rw [show (dat0 V c).leavesExact 4 t = owns (c : Thread nD τ) (ms0_4 t) fullShare ((dat0 V c).after 4 t) from by
        unfold Dat.leavesExact; rw [liveAt0_4 t hc2], after0_4]
      rw [show (dat0 V c).leavesExact 5 t = owns (c : Thread nD τ) (ms0_5 t) fullShare ((dat0 V c).after 5 t) from by
        unfold Dat.leavesExact; rw [liveAt0_5 t hc2], after0_5]
      rw [outsAt0_C V c t h0 h2]
      unfold out0_C_4 out0_C_5 sout0_C_0; (try dsimp only)
      rw [PhiS_castSucc V c t, PhiS_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h0) hc2 (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _)
    · have hc2 : ¬cond0_2 (grid0.coords t) := fun h => h2 ((hcond0_2 t).mp h)
      rw [Dat.leavesExact_idle (dat0 V c) 4 t (idleAt0_4 t hc2) (noFlush0_4 t hc2),
        Dat.leavesExact_idle (dat0 V c) 5 t (idleAt0_5 t hc2) (noFlush0_5 t hc2)]
      rw [outsAt0_B V c t h0 h2]
      unfold sout0_B_0; (try dsimp only)
      rw [PhiS_castSucc V c t, PhiS_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) ((hcond0_1 t).mpr h0) hc2 (iblk0 V c 0 t) (iblk0 V c 1 t) (iblk0 V c 2 t) (iblk0 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.Kernel.Hand

end
-- ==== Proof.BitsRegion1.lean ====
/-
  The second pallas_call (projection of a block of 2000 query rows, logits, softmax weights, weighted mixed rows) as a
  pipeline. The body has one control path: it loads its five inputs whole, computes, and stores its output block whole,
  so after every point the output's staging buffer holds the body's one piece, a function of the five input blocks. The
  invariant between points is what the region is entered with; nothing is carried.
-/
import proofs.«157675_g52209622450808_cont_9to1_m_767_6_alg».proof.Proof.Gen.Kernel.Launch
import proofs.«157675_g52209622450808_cont_9to1_m_767_6_alg».proof.Proof.Gen.Kernel.Skeleton
import proofs.«157675_g52209622450808_cont_9to1_m_767_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of the core's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- No window of this call is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The staging memrefs at a point -/

abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x256 .f32 := win1_5.stage (cfg1.slots t 5)
abbrev hs1_5 (t : Fin cfg1.N) : (ms1_5 t).IsWhole := hstage1_5 ((cfg1.slots t 5).cast nbuf1_5)
abbrev VO1_5 : View sig .tc .vmem S2000x256 .f32 := (Memref.whole cc1_stg5_0 : Memref sig .tc .vmem S2000x256 .f32).view

/-! ## The body's run -/

set_option maxHeartbeats 4000000 in
/-- The body on whole staging buffers: the five inputs at their contents, the output at anything; afterwards the
    output holds the run's pieces. -/
noncomputable def kernelRun1 (c : Dev nD) (i : grid1.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S1024x256 .f32) (x4 : Vec F S1024x256 .f32) :
    { L5 : List (View.Piece (Elt F) S2000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__attn_kernel i arg1 harg1 arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover1_5 (c : Dev nD) (i : grid1.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S1024x256 .f32) (x4 : Vec F S1024x256 .f32) (y : S2000x256.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S2000x256.size (by sl_kernel_rfl) y

/-- What the body leaves in the output's staging buffer. -/
def out1_5 (c : Dev nD) (i : grid1.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S1024x256 .f32) (x4 : Vec F S1024x256 .f32) : Vec F S2000x256 .f32 :=
  VO1_5.read (Elt F) (VO1_5.writes (Elt F) VO1_5.junk (kernelRun1 c i arg1 harg1 arg2 harg2 arg3 harg3 arg4 harg4 arg5 harg5 arg6 harg6 x0 x1 x2 x3 x4).1)

/-- At point `t`. -/
def outAt1 (c : Dev nD) (t : Fin cfg1.N) : Vec F S2000x256 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4000000 in
/-- The body at any point: the inputs' buffers hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  unfold outAt1 out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.R0Runs.lean ====
/-
  The Gram / key-projection kernel body, run once per control case.

  The body's three conditionals depend on the grid position i alone: the first chunk (i = 0) stores its Gram product
  into the accumulator, a later chunk (i > 0) adds its product to what the accumulator holds, and the last chunk
  (i = 7) also computes the mixed rows and the key projection into the two outputs. So a point is in one of three
  cases: A (i = 0), B (0 < i < 7), C (i = 7). For each case the body is run symbolically on whole staging buffers; what
  the run stores, as lists of pieces, is its witness.
-/
import proofs.«157675_g52209622450808_cont_9to1_m_767_6_alg».proof.Proof.Gen.KernelIdeal.Launch
import proofs.«157675_g52209622450808_cont_9to1_m_767_6_alg».proof.Proof.Gen.KernelIdeal.Skeleton
import proofs.«157675_g52209622450808_cont_9to1_m_767_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The three conditions, decided over the grid -/

/-- "This is the first chunk." -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is a later chunk." -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ t.val ≠ 0 :=
  (by decide +kernel : ∀ t : Fin grid0.N, cond0_1 (grid0.coords t) ↔ t.val ≠ 0)

/-- "This is the last chunk." -/
abbrev cond0_2 (i : grid0.Coords) : Prop := k0_cond3 i = 1#1
theorem hcond0_2 : ∀ t : Fin cfg0.N, cond0_2 (grid0.coords t) ↔ t.val = 7 :=
  (by decide +kernel : ∀ t : Fin grid0.N, cond0_2 (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last chunk the two outputs are idle and not written back. -/
theorem idleAt0_4 : ∀ t : Fin cfg0.N, ¬cond0_2 (grid0.coords t) → cfg0.idle 4 (grid0.coords t) = true := by decide +kernel
theorem noFlush0_4 : ∀ t : Fin cfg0.N, ¬cond0_2 (grid0.coords t) → (cfg0.win 4).flush t = false := by decide +kernel
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
/-- At the last chunk they are live. -/
theorem liveAt0_4 : ∀ t : Fin cfg0.N, cond0_2 (grid0.coords t) → cfg0.idle 4 (grid0.coords t) = false := by decide +kernel
theorem liveAt0_5 : ∀ t : Fin cfg0.N, cond0_2 (grid0.coords t) → cfg0.idle 5 (grid0.coords t) = false := by decide +kernel

/-! ## The staging memrefs at a point, the accumulator, and the views contents are stated through -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S1024x1024 .f32 := Memref.whole cc0_scratch0
abbrev VS0_0 : View sig .tc .vmem S1024x1024 .f32 := scM0_0.view
abbrev VO0_4 : View sig .tc .vmem S1024x256 .f32 := (Memref.whole cc0_stg4_0 : Memref sig .tc .vmem S1024x256 .f32).view
abbrev VO0_5 : View sig .tc .vmem S1024x256 .f32 := (Memref.whole cc0_stg5_0 : Memref sig .tc .vmem S1024x256 .f32).view

/-! ## The runs -/

set_option maxHeartbeats 4000000 in
/-- Case A, the first chunk: the inputs at their contents, the two outputs handed back untouched, the accumulator at
    anything; afterwards the accumulator holds the run's pieces. -/
noncomputable def kernelRun0_A (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (x1 : Vec F S1024x256 .f32) (x2 : Vec F S256x256 .f32) (x3 : Vec F S1x256 .f32) :
    { LS0 : List (View.Piece (Elt F) S1024x1024 .f32) //
      ∀ (xi4 xi5 : Vec F S1024x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun xi4 xi5 E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- Case B, a middle chunk: as case A, but the accumulator is found at what the chunk before left (`xs0`). -/
noncomputable def kernelRun0_B (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (x1 : Vec F S1024x256 .f32) (x2 : Vec F S256x256 .f32) (x3 : Vec F S1x256 .f32) (xs0 : Vec F S1024x1024 .f32) :
    { LS0 : List (View.Piece (Elt F) S1024x1024 .f32) //
      ∀ (xi4 xi5 : Vec F S1024x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun xi4 xi5 E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 8000000 in
/-- Case C, the last chunk: the accumulator is found at what the chunk before left, the two outputs at anything;
    afterwards each output and the accumulator hold the run's pieces. -/
noncomputable def kernelRun0_C (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    Σ' (L4 : List (View.Piece (Elt F) S1024x256 .f32)) (L5 : List (View.Piece (Elt F) S1024x256 .f32)), { LS0 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, ?_, ?_, fun E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Hand

end
-- ==== Proof.Region0.lean ====
/-
  The first pallas_call (Gram accumulation, mixed rows, key projection) as a pipeline: what each buffer holds after
  each grid point, the invariant that carries the accumulator from one point to the next, and the body obligation.

  After point n the accumulator holds what that point's case stored: the first chunk's product at n = 0, and at a later
  point what the point before left plus this chunk's product. The two outputs are stored at the last point only; before
  it their buffers are idle and are not written back, so what is recorded for them there is a placeholder nobody reads.
-/
import proofs.«157675_g52209622450808_cont_9to1_m_767_6_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The placeholder recorded for an output at a point where it is idle. -/
def idle0_4 : Vec F S1024x256 .f32 := VO0_4.read (Elt F) VO0_4.junk
def idle0_5 : Vec F S1024x256 .f32 := VO0_5.read (Elt F) VO0_5.junk

theorem scover0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (x1 : Vec F S1024x256 .f32) (x2 : Vec F S256x256 .f32) (x3 : Vec F S1x256 .f32) (y : S1024x1024.Idx) :
    ∃ pc ∈ (kernelRun0_A c i arg1 harg1 arg2 harg2 arg3 harg3 arg4 harg4 arg5 harg5 arg6 harg6 arg7 harg7 hc0 hc1 hc2 x0 x1 x2 x3).1, y ∈ pc.1.set :=
  View.cover_of_tiledL (kernelRun0_A c i arg1 harg1 arg2 harg2 arg3 harg3 arg4 harg4 arg5 harg5 arg6 harg6 arg7 harg7 hc0 hc1 hc2 x0 x1 x2 x3).1 S1024x1024.size (by sl_kernel_rfl) y

/-- What the first chunk leaves in the accumulator. -/
def sout0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (x1 : Vec F S1024x256 .f32) (x2 : Vec F S256x256 .f32) (x3 : Vec F S1x256 .f32) : Vec F S1024x1024 .f32 :=
  VS0_0.read (Elt F) (VS0_0.writes (Elt F) VS0_0.junk (kernelRun0_A c i arg1 harg1 arg2 harg2 arg3 harg3 arg4 harg4 arg5 harg5 arg6 harg6 arg7 harg7 hc0 hc1 hc2 x0 x1 x2 x3).1)

theorem scover0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (x1 : Vec F S1024x256 .f32) (x2 : Vec F S256x256 .f32) (x3 : Vec F S1x256 .f32) (xs0 : Vec F S1024x1024 .f32) (y : S1024x1024.Idx) :
    ∃ pc ∈ (kernelRun0_B c i arg1 harg1 arg2 harg2 arg3 harg3 arg4 harg4 arg5 harg5 arg6 harg6 arg7 harg7 hc0 hc1 hc2 x0 x1 x2 x3 xs0).1, y ∈ pc.1.set :=
  View.cover_of_tiledL (kernelRun0_B c i arg1 harg1 arg2 harg2 arg3 harg3 arg4 harg4 arg5 harg5 arg6 harg6 arg7 harg7 hc0 hc1 hc2 x0 x1 x2 x3 xs0).1 S1024x1024.size (by sl_kernel_rfl) y

/-- What a middle chunk leaves in the accumulator, over what it found there. -/
def sout0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (x1 : Vec F S1024x256 .f32) (x2 : Vec F S256x256 .f32) (x3 : Vec F S1x256 .f32) (xs0 : Vec F S1024x1024 .f32) : Vec F S1024x1024 .f32 :=
  VS0_0.read (Elt F) (VS0_0.writes (Elt F) VS0_0.junk (kernelRun0_B c i arg1 harg1 arg2 harg2 arg3 harg3 arg4 harg4 arg5 harg5 arg6 harg6 arg7 harg7 hc0 hc1 hc2 x0 x1 x2 x3 xs0).1)

theorem cover0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).1, y ∈ pc.1.set :=
  View.cover_of_tiledL (kernelRun0_C c i arg1 harg1 arg2 harg2 arg3 harg3 arg4 harg4 arg5 harg5 arg6 harg6 arg7 harg7 hc0 hc1 hc2 x0 x1 x2 x3 xs0).1 S1024x256.size (by sl_kernel_rfl) y

/-- What the last chunk leaves in the first output (the mixed rows). -/
def out0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_4.read (Elt F) (VO0_4.writes (Elt F) VO0_4.junk (kernelRun0_C c i arg1 harg1 arg2 harg2 arg3 harg3 arg4 harg4 arg5 harg5 arg6 harg6 arg7 harg7 hc0 hc1 hc2 x0 x1 x2 x3 xs0).1)

theorem cover0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.1 S1024x256.size (by sl_kernel_rfl) y

/-- What the last chunk leaves in the second output (the key projection). -/
def out0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_5.read (Elt F) (VO0_5.writes (Elt F) VO0_5.junk (kernelRun0_C c i arg1 harg1 arg2 harg2 arg3 harg3 arg4 harg4 arg5 harg5 arg6 harg6 arg7 harg7 hc0 hc1 hc2 x0 x1 x2 x3 xs0).2.1)

theorem scover0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x1024.Idx) :
    ∃ pc ∈ (kernelRun0_C c i arg1 harg1 arg2 harg2 arg3 harg3 arg4 harg4 arg5 harg5 arg6 harg6 arg7 harg7 hc0 hc1 hc2 x0 x1 x2 x3 xs0).2.2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.2.1 S1024x1024.size (by sl_kernel_rfl) y

/-- What the last chunk leaves in the accumulator. -/
def sout0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x1024 .f32 :=
  VS0_0.read (Elt F) (VS0_0.writes (Elt F) VS0_0.junk (kernelRun0_C c i arg1 harg1 arg2 harg2 arg3 harg3 arg4 harg4 arg5 harg5 arg6 harg6 arg7 harg7 hc0 hc1 hc2 x0 x1 x2 x3 xs0).2.2.1)

/-! ## What the buffers hold after each point -/

/-- After the body at position `n`: the two outputs' staging buffers and the accumulator. -/
def outsAt0 (c : Dev nD) : (n : ℕ) → n < cfg0.N → Vec F S1024x256 .f32 × Vec F S1024x256 .f32 × Vec F S1024x1024 .f32
  | 0, hn => (idle0_4, idle0_5,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (fun h => (hcond0_1 ⟨0, hn⟩).mp h rfl) (fun h => absurd ((hcond0_2 ⟨0, hn⟩).mp h) (show ¬ (0 : ℕ) = 7 by decide)) (iblk0 V c 0 ⟨0, hn⟩) (iblk0 V c 1 ⟨0, hn⟩) (iblk0 V c 2 ⟨0, hn⟩) (iblk0 V c 3 ⟨0, hn⟩))
  | n + 1, hn =>
    if h2 : n + 1 = 7 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
    else
      (idle0_4, idle0_5,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

/-- At the first point: the first chunk's contents. -/
theorem outsAt0_A (c : Dev nD) (t : Fin cfg0.N) (h0 : t.val = 0) :
    outsAt0 V c t.val t.isLt = (idle0_4, idle0_5,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => (hcond0_1 t).mp h h0) (fun h => absurd ((hcond0_2 t).mp h) (by omega)) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- At a middle point: over what the point before left. -/
theorem outsAt0_B (c : Dev nD) (t : Fin cfg0.N) (h0 : t.val ≠ 0) (h2 : t.val ≠ 7) :
    outsAt0 V c t.val t.isLt = (idle0_4, idle0_5,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd rfl h0
  | succ n => exact (dif_neg h2).trans rfl

/-- At the last point: over what the point before left. -/
theorem outsAt0_C (c : Dev nD) (t : Fin cfg0.N) (h0 : t.val ≠ 0) (h2 : t.val = 7) :
    outsAt0 V c t.val t.isLt =
      (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd rfl h0
  | succ n => exact (dif_pos h2).trans rfl

/-! ## The invariant between points -/

/-- The scoped buffers of the second pallas_call, each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region is entered with: the accumulator at anything, the other scoped buffers, the generator register. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

/-- The invariant before position `n`: before the first point what the region is entered with; afterwards the same
    with the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ otherScoped c) ∗ (∃ r, prngReg c r)) := by
  cases n with
  | zero => exact absurd rfl hz
  | succ n => rfl

/-! ## The proof data -/

/-- The first pipeline's proof data on core `c`: the arrays as the region finds them; after the body each input's
    buffer at its block, the outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
/-- The body at any point. The inputs' buffers hold their blocks; the point's position says which case it is in; the
    invariant hands the body the accumulator at what the point before left (at anything at the first point) and takes
    it back at this point's contents; where the outputs are idle their buffers pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val = 0
  · have hc2 : ¬cond0_2 (grid0.coords t) := fun h => absurd ((hcond0_2 t).mp h) (by omega)
    rw [Dat.leavesExact_idle (dat0 V c) 4 t (idleAt0_4 t hc2) (noFlush0_4 t hc2),
      Dat.leavesExact_idle (dat0 V c) 5 t (idleAt0_5 t hc2) (noFlush0_5 t hc2)]
    rw [outsAt0_A V c t h0]
    unfold sout0_A_0; (try dsimp only)
    rw [PhiS_castSucc V c t, PhiS_zero V c _ _ h0, PhiA0_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => (hcond0_1 t).mp h h0) hc2 (iblk0 V c 0 t) (iblk0 V c 1 t) (iblk0 V c 2 t) (iblk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h2 : t.val = 7
    · have hc2 : cond0_2 (grid0.coords t) := (hcond0_2 t).mpr h2
      rw [show (dat0 V c).leavesExact 4 t = owns (c : Thread nD τ) (ms0_4 t) fullShare ((dat0 V c).after 4 t) from by
        unfold Dat.leavesExact; rw [liveAt0_4 t hc2], after0_4]
      rw [show (dat0 V c).leavesExact 5 t = owns (c : Thread nD τ) (ms0_5 t) fullShare ((dat0 V c).after 5 t) from by
        unfold Dat.leavesExact; rw [liveAt0_5 t hc2], after0_5]
      rw [outsAt0_C V c t h0 h2]
      unfold out0_C_4 out0_C_5 sout0_C_0; (try dsimp only)
      rw [PhiS_castSucc V c t, PhiS_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h0) hc2 (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _)
    · have hc2 : ¬cond0_2 (grid0.coords t) := fun h => h2 ((hcond0_2 t).mp h)
      rw [Dat.leavesExact_idle (dat0 V c) 4 t (idleAt0_4 t hc2) (noFlush0_4 t hc2),
        Dat.leavesExact_idle (dat0 V c) 5 t (idleAt0_5 t hc2) (noFlush0_5 t hc2)]
      rw [outsAt0_B V c t h0 h2]
      unfold sout0_B_0; (try dsimp only)
      rw [PhiS_castSucc V c t, PhiS_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) ((hcond0_1 t).mpr h0) hc2 (iblk0 V c 0 t) (iblk0 V c 1 t) (iblk0 V c 2 t) (iblk0 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Hand

end
-- ==== Proof.Region1.lean ====
/-
  The second pallas_call (projection of a block of 2000 query rows, logits, softmax weights, weighted mixed rows) as a
  pipeline. The body has one control path: it loads its five inputs whole, computes, and stores its output block whole,
  so after every point the output's staging buffer holds the body's one piece, a function of the five input blocks. The
  invariant between points is what the region is entered with; nothing is carried.
-/
import proofs.«157675_g52209622450808_cont_9to1_m_767_6_alg».proof.Proof.Gen.KernelIdeal.Launch
import proofs.«157675_g52209622450808_cont_9to1_m_767_6_alg».proof.Proof.Gen.KernelIdeal.Skeleton
import proofs.«157675_g52209622450808_cont_9to1_m_767_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- No window of this call is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The staging memrefs at a point -/

abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x256 .f32 := win1_5.stage (cfg1.slots t 5)
abbrev hs1_5 (t : Fin cfg1.N) : (ms1_5 t).IsWhole := hstage1_5 ((cfg1.slots t 5).cast nbuf1_5)
abbrev VO1_5 : View sig .tc .vmem S2000x256 .f32 := (Memref.whole cc1_stg5_0 : Memref sig .tc .vmem S2000x256 .f32).view

/-! ## The body's run -/

set_option maxHeartbeats 4000000 in
/-- The body on whole staging buffers: the five inputs at their contents, the output at anything; afterwards the
    output holds the run's pieces. -/
noncomputable def kernelRun1 (c : Dev nD) (i : grid1.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S1024x256 .f32) (x4 : Vec F S1024x256 .f32) :
    { L5 : List (View.Piece (Elt F) S2000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__attn_kernel i arg1 harg1 arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover1_5 (c : Dev nD) (i : grid1.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S1024x256 .f32) (x4 : Vec F S1024x256 .f32) (y : S2000x256.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S2000x256.size (by sl_kernel_rfl) y

/-- What the body leaves in the output's staging buffer. -/
def out1_5 (c : Dev nD) (i : grid1.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S1024x256 .f32) (x4 : Vec F S1024x256 .f32) : Vec F S2000x256 .f32 :=
  VO1_5.read (Elt F) (VO1_5.writes (Elt F) VO1_5.junk (kernelRun1 c i arg1 harg1 arg2 harg2 arg3 harg3 arg4 harg4 arg5 harg5 arg6 harg6 x0 x1 x2 x3 x4).1)

/-- At point `t`. -/
def outAt1 (c : Dev nD) (t : Fin cfg1.N) : Vec F S2000x256 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4000000 in
/-- The body at any point: the inputs' buffers hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  unfold outAt1 out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Boundary.lean ====
/-
  The contents of the core's buffers at the two regions' entries, read back to the launch memory: no host operation
  writes an argument, the two reshaped biases hold the biases' entries, and the second region finds the first region's
  two output arrays at what its write-backs left.
-/
import proofs.«157675_g52209622450808_cont_9to1_m_767_6_alg».proof.Proof.Run
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The two host reshapes write the reshaped biases only: any other buffer is as launched. -/
theorem after_hostOps0_of_ne (V : Valuation τ sig (Elt F)) (b : Ref sig .tc) (h0 : b ≠ main_v0) (h1 : b ≠ main_v1) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The first region's entry -/

theorem U1_main_arg1 (c : Dev nD) : U1 m ρ c main_arg1 = m ((c : Thread nD τ).loc main_arg1) :=
  (after_hostOps0_of_ne (W0 m ρ c) main_arg1 (by decide) (by decide)).trans rfl
theorem U1_main_arg2 (c : Dev nD) : U1 m ρ c main_arg2 = m ((c : Thread nD τ).loc main_arg2) :=
  (after_hostOps0_of_ne (W0 m ρ c) main_arg2 (by decide) (by decide)).trans rfl
theorem U1_main_arg5 (c : Dev nD) : U1 m ρ c main_arg5 = m ((c : Thread nD τ).loc main_arg5) :=
  (after_hostOps0_of_ne (W0 m ρ c) main_arg5 (by decide) (by decide)).trans rfl
/-- The reshaped key bias: its one row is the bias. -/
theorem U1_main_v1_apply (c : Dev nD) (e : Fin 256) :
    U1 m ρ c main_v1 (ix2 (0 : Fin 1) e) = m ((c : Thread nD τ).loc main_arg6) (ix1 e) := by
  have e1 : (U1 m ρ c main_v1 : S1x256.Idx → Elt F .f32)
      = shapeCast S1x256 (m ((c : Thread nD τ).loc main_arg6) : S256.Idx → Elt F .f32) shapeCasts_S256_S1x256 := by
    dsimp only [U1, W1, hostOps0]; after_results; rfl
  exact (congrFun e1 _).trans (shapeCast_a_1a_apply _ _ 0 e)

/-! ## The second region's entry -/

theorem U2_main_arg0 (c : Dev nD) : U2 m ρ c main_arg0 = m ((c : Thread nD τ).loc main_arg0) :=
  (W2_of_ne m ρ c main_arg0 (by decide)).trans
    ((after_hostOps0_of_ne (W0 m ρ c) main_arg0 (by decide) (by decide)).trans rfl)
theorem U2_main_arg3 (c : Dev nD) : U2 m ρ c main_arg3 = m ((c : Thread nD τ).loc main_arg3) :=
  (W2_of_ne m ρ c main_arg3 (by decide)).trans
    ((after_hostOps0_of_ne (W0 m ρ c) main_arg3 (by decide) (by decide)).trans rfl)
/-- The reshaped query bias: its one row is the bias. -/
theorem U2_main_v0_apply (c : Dev nD) (e : Fin 256) :
    U2 m ρ c main_v0 (ix2 (0 : Fin 1) e) = m ((c : Thread nD τ).loc main_arg4) (ix1 e) := by
  have e0 : U2 m ρ c main_v0 = U1 m ρ c main_v0 := W2_of_ne m ρ c main_v0 (by decide)
  have e1 : (U1 m ρ c main_v0 : S1x256.Idx → Elt F .f32)
      = shapeCast S1x256 (m ((c : Thread nD τ).loc main_arg4) : S256.Idx → Elt F .f32) shapeCasts_S256_S1x256 := by
    dsimp only [U1, W1, hostOps0]; after_results; rfl
  exact (congrFun (e0.trans e1) _).trans (shapeCast_a_1a_apply _ _ 0 e)
/-- The mixed rows as the first region left them. -/
theorem U2_main_v2_0 (c : Dev nD) : U2 m ρ c main_v2_0 = (dat0 (U1 m ρ) c).arrAt 4 cfg0.N := W2_arr m ρ c 4
/-- The key rows as the first region left them. -/
theorem U2_main_v2_1 (c : Dev nD) : U2 m ρ c main_v2_1 = (dat0 (U1 m ρ) c).arrAt 5 cfg0.N := W2_arr m ρ c 5

end Cert.KernelIdeal.Hand

end
-- ==== Proof.R0Value.lean ====
/-
  What the first pallas_call leaves, in terms of the body's arithmetic: the accumulator after each point as a fold of
  the chunks' Gram products, and the two output arrays after the region as the last point's stores.
-/
import proofs.«157675_g52209622450808_cont_9to1_m_767_6_alg».proof.Proof.Region0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-! ## What each case's stores leave, as values of the body's arithmetic -/

/-- The offsets `[0, 0]` are the zero offsets. -/
theorem hz2 : (![0, 0] : Fin 2 → Nat) = fun _ => 0 := funext fun a => by fin_cases a <;> rfl

/-- The first chunk leaves its Gram product in the accumulator. -/
theorem sout0_A_0_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (x1 : Vec F S1024x256 .f32) (x2 : Vec F S256x256 .f32) (x3 : Vec F S1x256 .f32) :
    sout0_A_0 c i arg1 harg1 arg2 harg2 arg3 harg3 arg4 harg4 arg5 harg5 arg6 harg6 arg7 harg7 hc0 hc1 hc2 x0 x1 x2 x3 = k0_pay2 x0 := by
  unfold sout0_A_0
  rw [View.read_writes_eq_canon _ _ _ (scover0_A_0 c i arg1 harg1 arg2 harg2 arg3 harg3 arg4 harg4 arg5 harg5 arg6 harg6 arg7 harg7 hc0 hc1 hc2 x0 x1 x2 x3)]
  unfold kernelRun0_A
  dsimp only
  sl_unfold_words
  rw [View.canon_unit_zero hz2]
  simp only [View.readAt_eq_ld, harg1.read_unread, View.ld_unit_zero (S := S512x1024) hz2]

/-- A middle chunk leaves what it found plus its Gram product. -/
theorem sout0_B_0_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (x1 : Vec F S1024x256 .f32) (x2 : Vec F S256x256 .f32) (x3 : Vec F S1x256 .f32) (xs0 : Vec F S1024x1024 .f32) :
    sout0_B_0 c i arg1 harg1 arg2 harg2 arg3 harg3 arg4 harg4 arg5 harg5 arg6 harg6 arg7 harg7 hc0 hc1 hc2 x0 x1 x2 x3 xs0 = k0_pay3 x0 xs0 := by
  unfold sout0_B_0
  rw [View.read_writes_eq_canon _ _ _ (scover0_B_0 c i arg1 harg1 arg2 harg2 arg3 harg3 arg4 harg4 arg5 harg5 arg6 harg6 arg7 harg7 hc0 hc1 hc2 x0 x1 x2 x3 xs0)]
  unfold kernelRun0_B
  dsimp only
  sl_unfold_words
  rw [View.canon_unit_zero hz2]
  simp only [View.readAt_eq_ld, harg1.read_unread, harg7.read_unread, View.ld_unit_zero (S := S512x1024) hz2,
    View.ld_unit_zero (S := S1024x1024) hz2]

/-- The last chunk leaves in the accumulator what it found plus its Gram product. -/
theorem sout0_C_0_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    sout0_C_0 c i arg1 harg1 arg2 harg2 arg3 harg3 arg4 harg4 arg5 harg5 arg6 harg6 arg7 harg7 hc0 hc1 hc2 x0 x1 x2 x3 xs0 = k0_pay3 x0 xs0 := by
  unfold sout0_C_0
  rw [View.read_writes_eq_canon _ _ _ (scover0_C_0 c i arg1 harg1 arg2 harg2 arg3 harg3 arg4 harg4 arg5 harg5 arg6 harg6 arg7 harg7 hc0 hc1 hc2 x0 x1 x2 x3 xs0)]
  unfold kernelRun0_C
  dsimp only
  sl_unfold_words
  rw [View.canon_unit_zero hz2]
  simp only [View.readAt_eq_ld, harg1.read_unread, harg7.read_unread, View.ld_unit_zero (S := S512x1024) hz2,
    View.ld_unit_zero (S := S1024x1024) hz2]

/-- The last chunk leaves in the first output the mixed rows of the accumulator it has just updated. -/
theorem out0_C_4_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    out0_C_4 c i arg1 harg1 arg2 harg2 arg3 harg3 arg4 harg4 arg5 harg5 arg6 harg6 arg7 harg7 hc0 hc1 hc2 x0 x1 x2 x3 xs0 = k0_pay4 (k0_pay3 x0 xs0) x1 := by
  unfold out0_C_4
  rw [View.read_writes_eq_canon _ _ _ (cover0_C_4 c i arg1 harg1 arg2 harg2 arg3 harg3 arg4 harg4 arg5 harg5 arg6 harg6 arg7 harg7 hc0 hc1 hc2 x0 x1 x2 x3 xs0)]
  unfold kernelRun0_C
  dsimp only
  sl_unfold_words
  rw [View.canon_unit_zero hz2]
  simp only [View.readAt_eq_ld, harg1.read_unread, harg2.read_unread, harg7.read_unread, View.ld_unit_zero (S := S512x1024) hz2,
    View.ld_unit_zero (S := S1024x1024) hz2, View.ld_unit_zero (S := S1024x256) hz2, View.readCov_unit_zero (S := S1024x1024) _ hz2]

/-- The last chunk leaves in the second output the key projection. -/
theorem out0_C_5_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    out0_C_5 c i arg1 harg1 arg2 harg2 arg3 harg3 arg4 harg4 arg5 harg5 arg6 harg6 arg7 harg7 hc0 hc1 hc2 x0 x1 x2 x3 xs0 = k0_pay5 x1 x2 x3 := by
  unfold out0_C_5
  rw [View.read_writes_eq_canon _ _ _ (cover0_C_5 c i arg1 harg1 arg2 harg2 arg3 harg3 arg4 harg4 arg5 harg5 arg6 harg6 arg7 harg7 hc0 hc1 hc2 x0 x1 x2 x3 xs0)]
  unfold kernelRun0_C
  dsimp only
  sl_unfold_words
  rw [View.canon_unit_zero hz2]
  simp only [View.readAt_eq_ld, harg2.read_unread, harg3.read_unread, harg4.read_unread,
    View.ld_unit_zero (S := S1024x256) hz2, View.ld_unit_zero (S := S256x256) hz2, View.ld_unit_zero (S := S1x256) hz2]

/-! ## The accumulator after each point -/

variable (V : (c : Dev nD) → (b : Ref sig .tc) → Buf (Elt F) ((c : Thread nD τ).loc b))

/-- The accumulator after point `n`. -/
def acc0 (c : Dev nD) (n : ℕ) (hn : n < cfg0.N) : Vec F S1024x1024 .f32 := (outsAt0 V c n hn).2.2

/-- After the first chunk: its Gram product. -/
theorem acc0_zero (c : Dev nD) (hn : 0 < cfg0.N) : acc0 V c 0 hn = k0_pay2 (iblk0 V c 0 ⟨0, hn⟩) := by
  unfold acc0
  rw [outsAt0_A V c ⟨0, hn⟩ rfl]
  dsimp only
  exact sout0_A_0_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (fun h => (hcond0_1 ⟨0, hn⟩).mp h rfl) (fun h => absurd ((hcond0_2 ⟨0, hn⟩).mp h) (show ¬ (0 : ℕ) = 7 by decide)) (iblk0 V c 0 ⟨0, hn⟩) (iblk0 V c 1 ⟨0, hn⟩) (iblk0 V c 2 ⟨0, hn⟩) (iblk0 V c 3 ⟨0, hn⟩)

/-- After a later chunk: what the chunk before left, plus this chunk's product. -/
theorem acc0_succ (c : Dev nD) (n : ℕ) (hn : n + 1 < cfg0.N) :
    acc0 V c (n + 1) hn = k0_pay3 (iblk0 V c 0 ⟨n + 1, hn⟩) (acc0 V c n (Nat.lt_of_succ_lt hn)) := by
  unfold acc0
  by_cases h2 : n + 1 = 7
  · rw [outsAt0_C V c ⟨n + 1, hn⟩ (Nat.succ_ne_zero n) h2]
    dsimp only
    exact sout0_C_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2
  · rw [outsAt0_B V c ⟨n + 1, hn⟩ (Nat.succ_ne_zero n) h2]
    dsimp only
    exact sout0_B_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) ((hcond0_1 ⟨n + 1, hn⟩).mpr (Nat.succ_ne_zero n)) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2

/-! ## The windows' blocks, read off their arrays -/

/-- The block indices, decided over the eight points: the chunk window moves down the rows with the point and stays
    on the columns; every other window stays on its one block. -/
theorem blockIdx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Where entry (b, i) of chunk `t` sits in `fix`: row 512·t + b, column i. -/
theorem emb0_0 (t : Fin cfg0.N) (b : Fin 512) (i : Fin 1024) :
    ((cfg0.win 0).blk t).view.emb (ix2 b i)
      = ix2 (⟨512 * t.val + b.val, by have := t.isLt; have : cfg0.N = 8 := N_0; omega⟩ : Fin 4096) i := by
  obtain ⟨⟨e0, e1⟩, -⟩ := blockIdx0 t
  funext a
  apply Fin.ext
  match a with
  | ⟨0, _⟩ => show win0_0.index t (0 : Fin 2) * 512 + 1 * b.val = 512 * t.val + b.val; omega
  | ⟨1, _⟩ => show win0_0.index t (1 : Fin 2) * 1024 + 1 * i.val = i.val; omega

/-- Chunk `t` of `fix`: rows 512·t … 512·t + 511. -/
theorem iblk0_0_apply (c : Dev nD) (t : Fin cfg0.N) (b : Fin 512) (i : Fin 1024) :
    iblk0 V c 0 t (ix2 b i) = V c main_arg2 (ix2 (⟨512 * t.val + b.val, by have := t.isLt; have : cfg0.N = 8 := N_0; omega⟩ : Fin 4096) i) := by
  unfold iblk0
  rw [View.read_apply]
  exact congrArg (V c main_arg2) (emb0_0 t b i)

/-- Window 1's one block is its whole array: read through it, any contents of the array are themselves. -/
theorem blkRead0_1 (t : Fin cfg0.N) (f : S1024x256.Idx → Elt F .f32) :
    ((cfg0.win 1).blk t).view.read (Elt F) f = f := by
  obtain ⟨-, ⟨e0, e1⟩, -⟩ := blockIdx0 t
  funext j
  rw [View.read_apply]
  refine congrArg f (funext fun a => Fin.ext ?_)
  match a with
  | ⟨0, _⟩ => show win0_1.index t (0 : Fin 2) * 1024 + 1 * (j 0).val = (j 0).val; omega
  | ⟨1, _⟩ => show win0_1.index t (1 : Fin 2) * 256 + 1 * (j 1).val = (j 1).val; omega

/-- Window 2's one block is its whole array: read through it, any contents of the array are themselves. -/
theorem blkRead0_2 (t : Fin cfg0.N) (f : S256x256.Idx → Elt F .f32) :
    ((cfg0.win 2).blk t).view.read (Elt F) f = f := by
  obtain ⟨-, -, ⟨e0, e1⟩, -⟩ := blockIdx0 t
  funext j
  rw [View.read_apply]
  refine congrArg f (funext fun a => Fin.ext ?_)
  match a with
  | ⟨0, _⟩ => show win0_2.index t (0 : Fin 2) * 256 + 1 * (j 0).val = (j 0).val; omega
  | ⟨1, _⟩ => show win0_2.index t (1 : Fin 2) * 256 + 1 * (j 1).val = (j 1).val; omega

/-- Window 3's one block is its whole array: read through it, any contents of the array are themselves. -/
theorem blkRead0_3 (t : Fin cfg0.N) (f : S1x256.Idx → Elt F .f32) :
    ((cfg0.win 3).blk t).view.read (Elt F) f = f := by
  obtain ⟨-, -, -, ⟨e0, e1⟩, -⟩ := blockIdx0 t
  funext j
  rw [View.read_apply]
  refine congrArg f (funext fun a => Fin.ext ?_)
  match a with
  | ⟨0, _⟩ => show win0_3.index t (0 : Fin 2) * 1 + 1 * (j 0).val = (j 0).val; omega
  | ⟨1, _⟩ => show win0_3.index t (1 : Fin 2) * 256 + 1 * (j 1).val = (j 1).val; omega

/-- Window 4's one block is its whole array: read through it, any contents of the array are themselves. -/
theorem blkRead0_4 (t : Fin cfg0.N) (f : S1024x256.Idx → Elt F .f32) :
    ((cfg0.win 4).blk t).view.read (Elt F) f = f := by
  obtain ⟨-, -, -, -, ⟨e0, e1⟩, -⟩ := blockIdx0 t
  funext j
  rw [View.read_apply]
  refine congrArg f (funext fun a => Fin.ext ?_)
  match a with
  | ⟨0, _⟩ => show win0_4.index t (0 : Fin 2) * 1024 + 1 * (j 0).val = (j 0).val; omega
  | ⟨1, _⟩ => show win0_4.index t (1 : Fin 2) * 256 + 1 * (j 1).val = (j 1).val; omega

/-- Window 5's one block is its whole array: read through it, any contents of the array are themselves. -/
theorem blkRead0_5 (t : Fin cfg0.N) (f : S1024x256.Idx → Elt F .f32) :
    ((cfg0.win 5).blk t).view.read (Elt F) f = f := by
  obtain ⟨-, -, -, -, -, ⟨e0, e1⟩⟩ := blockIdx0 t
  funext j
  rw [View.read_apply]
  refine congrArg f (funext fun a => Fin.ext ?_)
  match a with
  | ⟨0, _⟩ => show win0_5.index t (0 : Fin 2) * 1024 + 1 * (j 0).val = (j 0).val; omega
  | ⟨1, _⟩ => show win0_5.index t (1 : Fin 2) * 256 + 1 * (j 1).val = (j 1).val; omega

/-- The window of `other` holds all of `other` at every point. -/
theorem iblk0_1_eq (c : Dev nD) (t : Fin cfg0.N) : iblk0 V c 1 t = V c main_arg1 := blkRead0_1 t (V c main_arg1)
/-- The window of the key weight holds all of it at every point. -/
theorem iblk0_2_eq (c : Dev nD) (t : Fin cfg0.N) : iblk0 V c 2 t = V c main_arg5 := blkRead0_2 t (V c main_arg5)
/-- The window of the key bias row holds all of it at every point. -/
theorem iblk0_3_eq (c : Dev nD) (t : Fin cfg0.N) : iblk0 V c 3 t = V c main_v1 := blkRead0_3 t (V c main_v1)

/-! ## The last point's stores, and the two output arrays after the region -/

/-- At the last point the first output's buffer holds the mixed rows of the accumulator as that point leaves it. -/
theorem out4_last (c : Dev nD) (t : Fin cfg0.N) (h0 : t.val ≠ 0) (h7 : t.val = 7) :
    (outsAt0 V c t.val t.isLt).1 = k0_pay4 (acc0 V c t.val t.isLt) (iblk0 V c 1 t) := by
  unfold acc0
  rw [outsAt0_C V c t h0 h7]
  dsimp only
  rw [out0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h7) (iblk0 V c 0 t) (iblk0 V c 1 t) (iblk0 V c 2 t) (iblk0 V c 3 t) (outsAt0 V c (t.val - 1) (Nat.lt_of_le_of_lt (Nat.sub_le _ _) t.isLt)).2.2, sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h7) (iblk0 V c 0 t) (iblk0 V c 1 t) (iblk0 V c 2 t) (iblk0 V c 3 t) (outsAt0 V c (t.val - 1) (Nat.lt_of_le_of_lt (Nat.sub_le _ _) t.isLt)).2.2]

/-- At the last point the second output's buffer holds the key projection. -/
theorem out5_last (c : Dev nD) (t : Fin cfg0.N) (h0 : t.val ≠ 0) (h7 : t.val = 7) :
    (outsAt0 V c t.val t.isLt).2.1 = k0_pay5 (iblk0 V c 1 t) (iblk0 V c 2 t) (iblk0 V c 3 t) := by
  rw [outsAt0_C V c t h0 h7]
  dsimp only
  rw [out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h7) (iblk0 V c 0 t) (iblk0 V c 1 t) (iblk0 V c 2 t) (iblk0 V c 3 t) (outsAt0 V c (t.val - 1) (Nat.lt_of_le_of_lt (Nat.sub_le _ _) t.isLt)).2.2]

/-- A point that writes an output back is the last one. -/
theorem last_of_flush4 (t : Fin cfg0.N) (hf : (cfg0.win 4).flush t = true) : t.val = 7 := by
  have h := (flush0_4 t).mp hf; have := t.isLt; have : cfg0.N = 8 := N_0; omega
theorem last_of_flush5 (t : Fin cfg0.N) (hf : (cfg0.win 5).flush t = true) : t.val = 7 := by
  have h := (flush0_5 t).mp hf; have := t.isLt; have : cfg0.N = 8 := N_0; omega

/-- The mixed rows, as contents of the first output array. -/
abbrev mixedArr (c : Dev nD) : Vec F S1024x256 .f32 :=
  k0_pay4 (acc0 V c 7 (by rw [show cfg0.N = 8 from N_0]; decide)) (V c main_arg1)
/-- The key projection, as contents of the second output array. -/
abbrev keyArr (c : Dev nD) : Vec F S1024x256 .f32 := k0_pay5 (V c main_arg1) (V c main_arg5) (V c main_v1)

/-- What a point writes back to the first output is its (one, whole) block of the mixed rows. -/
theorem flushed0_4_eq (c : Dev nD) (t : Fin cfg0.N) (hf : (cfg0.win 4).flush t = true) :
    (dat0 V c).flushed 4 t = ((cfg0.win 4).blk t).view.read (Elt F) (mixedArr V c) := by
  have h7 := last_of_flush4 t hf
  rw [blkRead0_4 t (mixedArr V c)]
  show (cfg0.win 4).cut (grid0.coords t) ((dat0 V c).after 4 t) = _
  rw [after0_4, out4_last V c t (by omega) h7, iblk0_1_eq]
  obtain ⟨n, hn⟩ := t
  obtain rfl : n = 7 := h7
  rfl

/-- What a point writes back to the second output is its (one, whole) block of the key projection. -/
theorem flushed0_5_eq (c : Dev nD) (t : Fin cfg0.N) (hf : (cfg0.win 5).flush t = true) :
    (dat0 V c).flushed 5 t = ((cfg0.win 5).blk t).view.read (Elt F) (keyArr V c) := by
  have h7 := last_of_flush5 t hf
  rw [blkRead0_5 t (keyArr V c)]
  show (cfg0.win 5).cut (grid0.coords t) ((dat0 V c).after 5 t) = _
  rw [after0_5, out5_last V c t (by omega) h7, iblk0_1_eq, iblk0_2_eq, iblk0_3_eq]
  rfl

/-- Every entry of the first output array is in the block the last point writes back. -/
theorem cover0_4 (i : S1024x256.Idx) : ∃ t : Fin cfg0.N, (cfg0.win 4).flush t = true ∧ i ∈ ((cfg0.win 4).blk t).view.set := by
  refine ⟨t0_7, (flush0_4 t0_7).mpr rfl, ?_⟩
  obtain ⟨-, -, -, -, ⟨e0, e1⟩, -⟩ := blockIdx0 t0_7
  show i ∈ ((View.whole main_v2_0).slice (win0_4.rect t0_7)).set
  rw [View.set_slice_whole, Rect.mem_set_unit]
  intro a
  match a with
  | ⟨0, _⟩ =>
    show win0_4.index t0_7 (0 : Fin 2) * 1024 ≤ (i 0).val ∧ (i 0).val < win0_4.index t0_7 (0 : Fin 2) * 1024 + 1024
    have := idx2_lt0 i; omega
  | ⟨1, _⟩ =>
    show win0_4.index t0_7 (1 : Fin 2) * 256 ≤ (i 1).val ∧ (i 1).val < win0_4.index t0_7 (1 : Fin 2) * 256 + 256
    have := idx2_lt1 i; omega

/-- Every entry of the second output array is in the block the last point writes back. -/
theorem cover0_5 (i : S1024x256.Idx) : ∃ t : Fin cfg0.N, (cfg0.win 5).flush t = true ∧ i ∈ ((cfg0.win 5).blk t).view.set := by
  refine ⟨t0_7, (flush0_5 t0_7).mpr rfl, ?_⟩
  obtain ⟨-, -, -, -, -, ⟨e0, e1⟩⟩ := blockIdx0 t0_7
  show i ∈ ((View.whole main_v2_1).slice (win0_5.rect t0_7)).set
  rw [View.set_slice_whole, Rect.mem_set_unit]
  intro a
  match a with
  | ⟨0, _⟩ =>
    show win0_5.index t0_7 (0 : Fin 2) * 1024 ≤ (i 0).val ∧ (i 0).val < win0_5.index t0_7 (0 : Fin 2) * 1024 + 1024
    have := idx2_lt0 i; omega
  | ⟨1, _⟩ =>
    show win0_5.index t0_7 (1 : Fin 2) * 256 ≤ (i 1).val ∧ (i 1).val < win0_5.index t0_7 (1 : Fin 2) * 256 + 256
    have := idx2_lt1 i; omega

/-- The first output array after the region: the mixed rows computed from the accumulator after the last chunk. -/
theorem arrAt0_4 (c : Dev nD) :
    (dat0 V c).arrAt 4 cfg0.N = k0_pay4 (acc0 V c 7 (by rw [show cfg0.N = 8 from N_0]; decide)) (V c main_arg1) :=
  (dat0 V c).arrAt_eq_of_cover 4 (mixedArr V c) (flushed0_4_eq V c) cover0_4

/-- The second output array after the region: the key projection. -/
theorem arrAt0_5 (c : Dev nD) :
    (dat0 V c).arrAt 5 cfg0.N = k0_pay5 (V c main_arg1) (V c main_arg5) (V c main_v1) :=
  (dat0 V c).arrAt_eq_of_cover 5 (keyArr V c) (flushed0_5_eq V c) cover0_5

end Cert.KernelIdeal.Hand

end
-- ==== Proof.Spec.lean ====
/-
  The mathematics both programs compute, written once over the extended reals and over the literal extents of
  this certificate, index by index.

  Inputs: main [10000, 256], other [1024, 256], fix [4096, 1024], Wq, Wk [256, 256], bq, bk [256].
    Q = main · Wqᵀ + bq,   K = other · Wkᵀ + bk                         (`proj`)
    G = fixᵀ · fix  (the Gram matrix),  s = √G,  c_j = Σ_i s_ij         (`gram`, `sq`, `colsum`)
    M = s · (other / c)   — row j of other divided by c_j               (`mixed`)
    a = (Q · Kᵀ) · (1/16),  p = exp (a − rowmax a),  d = Σ_j p          (`logit`, `rowmax`, `pexp`, `denom`)
    O = (p · M) / d                                                       (`out`)
  The reference normalises the other way round — (s / c) · other and (p / d) · M —; the two agree where no column sum
  c_j is zero and the projected inputs are finite (RefAlgebra).
-/
import Idealize.ShloMosaic.PureOps.Ideal
import Idealize.ShloMosaic.Lib.ValueIdx

noncomputable section

namespace Cert.Spec

open Idealize.ShloMosaic Idealize.ShloMosaic.ValueIdx

/-- A rank-2 array of extended reals at literal extents. -/
abbrev Arr2 (n0 n1 : Nat) : Type := (⟨2, ![n0, n1]⟩ : Shape).Idx → EReal
/-- A rank-1 array of extended reals at a literal extent. -/
abbrev Arr1 (n : Nat) : Type := (⟨1, ![n]⟩ : Shape).Idx → EReal

/-- The scale 1/√256 = 1/16 as the kernel carries it: the f32 word of 0.0625. -/
abbrev scaleWord : BitVec 32 := 0x3D800000#32
/-- The f32 word of −∞, the row maximum's starting value. -/
abbrev negInfWord : BitVec 32 := 0xFF800000#32

/-- A linear layer: row `r` of `x` against row `e` of the weight, plus the bias at `e`. -/
def proj {R : Nat} (x : Arr2 R 256) (w : Arr2 256 256) (b : Arr1 256) (r : Fin R) (e : Fin 256) : EReal :=
  (∑ k : Fin 256, x (ix2 r k) * w (ix2 e k)) + b (ix1 e)

/-- The Gram matrix of `fix`'s columns. -/
def gram (fix : Arr2 4096 1024) (i j : Fin 1024) : EReal :=
  ∑ b : Fin 4096, fix (ix2 b i) * fix (ix2 b j)

/-- Its entrywise square root. -/
def sq (fix : Arr2 4096 1024) (i j : Fin 1024) : EReal := Ideal.sqrt (gram fix i j)

/-- The sum of column `j` of the square-rooted Gram matrix. -/
def colsum (fix : Arr2 4096 1024) (j : Fin 1024) : EReal := ∑ i : Fin 1024, sq fix i j

/-- The mixed rows: √G times `other` with row `j` divided by column sum `j`. -/
def mixed (fix : Arr2 4096 1024) (other : Arr2 1024 256) (i : Fin 1024) (d : Fin 256) : EReal :=
  ∑ j : Fin 1024, sq fix i j * Ideal.div (other (ix2 j d)) (colsum fix j)

/-- The scaled attention logit of query row `r` against key row `j`. -/
def logit (main : Arr2 10000 256) (wq : Arr2 256 256) (bq : Arr1 256) (other : Arr2 1024 256) (wk : Arr2 256 256) (bk : Arr1 256)
    (r : Fin 10000) (j : Fin 1024) : EReal :=
  (∑ k : Fin 256, proj main wq bq r k * proj other wk bk j k) * Ideal.ofBits .f32 scaleWord

/-- The maximum of a row of 1024 values, from −∞. -/
def rowmax (a : Fin 1024 → EReal) : EReal :=
  (Finset.univ : Finset (Fin 1024)).fold max (Ideal.ofBits .f32 negInfWord) a

/-- The unnormalised softmax weight. -/
def pexp (a : Fin 1024 → EReal) (j : Fin 1024) : EReal := Ideal.exp (a j - rowmax a)

/-- The softmax denominator. -/
def denom (a : Fin 1024 → EReal) : EReal := ∑ j : Fin 1024, pexp a j

/-- One output entry from a row of logits and the mixed rows. -/
def outOf (a : Fin 1024 → EReal) (M : Fin 1024 → EReal) : EReal :=
  Ideal.div (∑ j : Fin 1024, pexp a j * M j) (denom a)

/-- The result, entry (r, d). -/
def out (main : Arr2 10000 256) (other : Arr2 1024 256) (fix : Arr2 4096 1024) (wq : Arr2 256 256) (bq : Arr1 256)
    (wk : Arr2 256 256) (bk : Arr1 256) (r : Fin 10000) (d : Fin 256) : EReal :=
  outOf (logit main wq bq other wk bk r) (fun j => mixed fix other j d)

/-- The result as an array. -/
def O (main : Arr2 10000 256) (other : Arr2 1024 256) (fix : Arr2 4096 1024) (wq : Arr2 256 256) (bq : Arr1 256)
    (wk : Arr2 256 256) (bk : Arr1 256) : Arr2 10000 256 :=
  fun i => out main other fix wq bq wk bk (i 0) (i 1)

/-! ## The reference's arrangement of the same quantities -/

/-- The divisor 16 as the reference carries it: the f32 word of 16.0. -/
abbrev sixteenWord : BitVec 32 := 0x41800000#32

/-- The reference's logit: the product divided by 16. -/
def logitRef (main : Arr2 10000 256) (wq : Arr2 256 256) (bq : Arr1 256) (other : Arr2 1024 256) (wk : Arr2 256 256) (bk : Arr1 256)
    (r : Fin 10000) (j : Fin 1024) : EReal :=
  Ideal.div (∑ k : Fin 256, proj main wq bq r k * proj other wk bk j k) (Ideal.ofBits .f32 sixteenWord)

/-- The reference's mixed rows: each column of √G normalised first, then the product with `other`. -/
def mixedRef (fix : Arr2 4096 1024) (other : Arr2 1024 256) (i : Fin 1024) (d : Fin 256) : EReal :=
  ∑ j : Fin 1024, Ideal.div (sq fix i j) (colsum fix j) * other (ix2 j d)

/-- One output entry the reference's way: the normalised weights against the mixed rows. -/
def outOfRef (a : Fin 1024 → EReal) (M : Fin 1024 → EReal) : EReal :=
  ∑ j : Fin 1024, Ideal.div (pexp a j) (denom a) * M j

/-- The reference's result, entry (r, d). -/
def outRef (main : Arr2 10000 256) (other : Arr2 1024 256) (fix : Arr2 4096 1024) (wq : Arr2 256 256) (bq : Arr1 256)
    (wk : Arr2 256 256) (bk : Arr1 256) (r : Fin 10000) (d : Fin 256) : EReal :=
  outOfRef (logitRef main wq bq other wk bk r) (fun j => mixedRef fix other j d)

/-- Every entry is a real number. -/
def Finite {S : Shape} (x : S.Idx → EReal) : Prop := ∀ i, ∃ r : ℝ, x i = (r : EReal)

end Cert.Spec

end
-- ==== Proof.Val0.lean ====
import proofs.«157675_g52209622450808_cont_9to1_m_767_6_alg».proof.Proof.Gen.KernelIdeal.Skeleton
import proofs.«157675_g52209622450808_cont_9to1_m_767_6_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val0

open Idealize.ShloMosaic Idealize.ShloMosaic.ValueIdx Cert.KernelIdeal Cert.KernelIdeal.Gen

/-! ## Two layout operations on a column: `[a] → [a, 1]` and `[a, 1] → [a, b]` -/

section Column
variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The Gram product `(b, i), (b, j) ↦ (i, j)`: both operands contracted over their rows -/

theorem lhs_gram_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem lhs_gram_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhs_gram_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem rhs_gram_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The product into a zero accumulator at `(i, j)`: the sum over the 512 shared rows. -/
theorem gram_apply (a b : FVec Ideal S512x1024 .bf16) (i j : Fin 1024) :
    matmul dot_S512x1024_S512x1024_S1024x1024_0_0_1_1_n_n none a b (constant (F := Ideal) S1024x1024 .f32 0x00000000#32) (ix2 i j)
      = ∑ k : Fin 512, a (ix2 k i) * b (ix2 k j) := by
  refine (Ideal.matmul_constant_zero_apply dot_S512x1024_S512x1024_S1024x1024_0_0_1_1_n_n none a b (ix2 i j)).trans ?_
  rw [← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 i j) ((contrEquiv1 dot_S512x1024_S512x1024_S1024x1024_0_0_1_1_n_n 512 rfl rfl).symm k) = ix2 k i := funext fun c => Fin.ext (by
    match c with
    | ⟨0, _⟩ => exact (lhs_gram_0 _ _).trans hk
    | ⟨1, _⟩ => exact lhs_gram_1 _ _)
  have er : dot_S512x1024_S512x1024_S1024x1024_0_0_1_1_n_n.rhsIdx (ix2 i j) ((contrEquiv1 dot_S512x1024_S512x1024_S1024x1024_0_0_1_1_n_n 512 rfl rfl).symm k) = ix2 k j := funext fun c => Fin.ext (by
    match c with
    | ⟨0, _⟩ => exact (rhs_gram_0 _ _).trans hk
    | ⟨1, _⟩ => exact rhs_gram_1 _ _)
  rw [el, er]

/-- One chunk's Gram product: 512 rows of `fix` against themselves. -/
theorem pay1_apply (x : Vec Ideal S512x1024 .f32) (i j : Fin 1024) :
    k0_pay1 (F := Ideal) x (ix2 i j) = ∑ b : Fin 512, x (ix2 b i) * x (ix2 b j) := by
  unfold k0_pay1
  exact gram_apply (truncf .bf16 x bitsLt_bf16_f32) (truncf .bf16 x bitsLt_bf16_f32) i j

/-- The first chunk's store is that product. -/
theorem pay2_apply (x : Vec Ideal S512x1024 .f32) (i j : Fin 1024) :
    k0_pay2 (F := Ideal) x (ix2 i j) = ∑ b : Fin 512, x (ix2 b i) * x (ix2 b j) := by
  unfold k0_pay2
  exact (congrFun (shapeCast_self (k0_pay1 (F := Ideal) x) shapeCasts_S1024x1024_S1024x1024) (ix2 i j)).trans (pay1_apply x i j)

/-- A later chunk's store adds its product to what the scratch held. -/
theorem pay3_apply (x : Vec Ideal S512x1024 .f32) (s : Vec Ideal S1024x1024 .f32) (i j : Fin 1024) :
    k0_pay3 (F := Ideal) x s (ix2 i j) = s (ix2 i j) + ∑ b : Fin 512, x (ix2 b i) * x (ix2 b j) := by
  unfold k0_pay3
  refine (congrFun (shapeCast_self (addf (F := Ideal) s (k0_pay1 (F := Ideal) x)) shapeCasts_S1024x1024_S1024x1024) (ix2 i j)).trans ?_
  exact congrArg (s (ix2 i j) + ·) (pay1_apply x i j)

/-! ## The plain product `(i, j), (j, d) ↦ (i, d)` -/

theorem lhs_mix_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mix_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mix_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mix_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product into a zero accumulator at `(i, d)`: row `i` of the left operand against column `d` of the right. -/
theorem mix_apply (a : FVec Ideal S1024x1024 .bf16) (b : FVec Ideal S1024x256 .bf16) (i : Fin 1024) (d : Fin 256) :
    matmul dot_S1024x1024_S1024x256_S1024x256_1_0_0_1_n_n none a b (constant (F := Ideal) S1024x256 .f32 0x00000000#32) (ix2 i d)
      = ∑ j : Fin 1024, a (ix2 i j) * b (ix2 j d) := by
  refine (Ideal.matmul_constant_zero_apply dot_S1024x1024_S1024x256_S1024x256_1_0_0_1_n_n none a b (ix2 i d)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 i d) ((contrEquiv1 dot_S1024x1024_S1024x256_S1024x256_1_0_0_1_n_n 1024 rfl rfl).symm k) = ix2 i k := funext fun c => Fin.ext (by
    match c with
    | ⟨0, _⟩ => exact lhs_mix_0 _ _
    | ⟨1, _⟩ => exact (lhs_mix_1 _ _).trans hk)
  have er : dot_S1024x1024_S1024x256_S1024x256_1_0_0_1_n_n.rhsIdx (ix2 i d) ((contrEquiv1 dot_S1024x1024_S1024x256_S1024x256_1_0_0_1_n_n 1024 rfl rfl).symm k) = ix2 k d := funext fun c => Fin.ext (by
    match c with
    | ⟨0, _⟩ => exact (rhs_mix_0 _ _).trans hk
    | ⟨1, _⟩ => exact rhs_mix_1 _ _)
  rw [el, er]

/-! ## The product against a transposed weight `(j, k), (e, k) ↦ (j, e)`: both operands contracted over their columns -/

theorem lhs_key_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_key_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_key_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_key_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The product into a zero accumulator at `(j, e)`: row `j` of the left operand against row `e` of the right. -/
theorem key_apply (a : FVec Ideal S1024x256 .bf16) (b : FVec Ideal S256x256 .bf16) (j : Fin 1024) (e : Fin 256) :
    matmul dot_S1024x256_S256x256_S1024x256_1_1_0_0_n_n none a b (constant (F := Ideal) S1024x256 .f32 0x00000000#32) (ix2 j e)
      = ∑ k : Fin 256, a (ix2 j k) * b (ix2 e k) := by
  refine (Ideal.matmul_constant_zero_apply dot_S1024x256_S256x256_S1024x256_1_1_0_0_n_n none a b (ix2 j e)).trans ?_
  rw [← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 j e) ((contrEquiv1 dot_S1024x256_S256x256_S1024x256_1_1_0_0_n_n 256 rfl rfl).symm k) = ix2 j k := funext fun c => Fin.ext (by
    match c with
    | ⟨0, _⟩ => exact lhs_key_0 _ _
    | ⟨1, _⟩ => exact (lhs_key_1 _ _).trans hk)
  have er : dot_S1024x256_S256x256_S1024x256_1_1_0_0_n_n.rhsIdx (ix2 j e) ((contrEquiv1 dot_S1024x256_S256x256_S1024x256_1_1_0_0_n_n 256 rfl rfl).symm k) = ix2 e k := funext fun c => Fin.ext (by
    match c with
    | ⟨0, _⟩ => exact rhs_key_0 _ _
    | ⟨1, _⟩ => exact (rhs_key_1 _ _).trans hk)
  rw [el, er]

/-! ## The sum down a column -/

/-- The lane sum over axis 0 of a `[1024, 1024]` array at `j`: the sum of column `j`. -/
theorem colsum_apply (src : FVec Ideal S1024x1024 .f32) (hφ : FKind.Formats .f32)
    (hacc : (0x00000000#32 : BitVec 32) = FKind.add.neutral .f32 hφ) (j : Fin 1024) :
    multiReduction (F := Ideal) .add [0] S1024 src 0x00000000#32 reduces_S1024x1024_S1024 hφ hacc (ix1 j)
      = ∑ i : Fin 1024, src (ix2 i j) := by
  refine (Ideal.multiReduction_add_single src 0x00000000#32 reduces_S1024x1024_S1024 hφ hacc (ix1 j)).trans ?_
  show ∑ k : Fin 1024, src (reduces_S1024x1024_S1024.lift (ix1 j) k) = ∑ i : Fin 1024, src (ix2 i j)
  refine Finset.sum_congr rfl fun k _ => congrArg src (funext fun c => Fin.ext ?_)
  match c with
  | ⟨0, _⟩ => rfl
  | ⟨1, _⟩ => rfl

/-- The mixed rows from the accumulated Gram matrix `g` and `other`. -/
theorem pay4_apply (g : Vec Ideal S1024x1024 .f32) (o : Vec Ideal S1024x256 .f32) (i : Fin 1024) (d : Fin 256) :
    k0_pay4 (F := Ideal) g o (ix2 i d)
      = ∑ j : Fin 1024, Ideal.sqrt (g (ix2 i j)) * Ideal.div (o (ix2 j d)) (∑ i' : Fin 1024, Ideal.sqrt (g (ix2 i' j))) := by
  unfold k0_pay4
  refine (mix_apply _ _ i d).trans ?_
  refine Finset.sum_congr rfl fun j _ => ?_
  show Ideal.sqrt (g (ix2 i j)) * Ideal.div (o (ix2 j d)) (broadcastTo S1024x256 (shapeCast S1024x1 (multiReduction (F := Ideal) .add [0] S1024 (sqrt (F := Ideal) g) 0x00000000#32 reduces_S1024x1024_S1024 (.inl rfl) rfl) shapeCasts_S1024_S1024x1) broadcasts_S1024x1_S1024x256 (ix2 j d)) = _
  rw [broadcastTo_a1_ab_apply, shapeCast_a_a1_apply]
  exact congrArg (fun c => Ideal.sqrt (g (ix2 i j)) * Ideal.div (o (ix2 j d)) c)
    (colsum_apply (sqrt (F := Ideal) g) (.inl rfl) rfl j)

/-- The key projection: row `j` of `other` against row `e` of Wk, plus the bias row at `e`. -/
theorem pay5_apply (o : Vec Ideal S1024x256 .f32) (wk : Vec Ideal S256x256 .f32) (b2 : Vec Ideal S1x256 .f32) (j : Fin 1024) (e : Fin 256) :
    k0_pay5 (F := Ideal) o wk b2 (ix2 j e) = (∑ k : Fin 256, o (ix2 j k) * wk (ix2 e k)) + b2 (ix2 (0 : Fin 1) e) := by
  unfold k0_pay5
  show matmul dot_S1024x256_S256x256_S1024x256_1_1_0_0_n_n none (truncf .bf16 o bitsLt_bf16_f32) (truncf .bf16 wk bitsLt_bf16_f32) (constant (F := Ideal) S1024x256 .f32 0x00000000#32) (ix2 j e)
      + broadcastTo S1024x256 (shapeCast S1x256 b2 shapeCasts_S1x256_S1x256) broadcasts_S1x256_S1024x256 (ix2 j e) = _
  rw [key_apply, broadcastTo_1b_ab_apply, shapeCast_self]
  rfl

end Cert.KernelIdeal.Val0

end
-- ==== Proof.Glue0.lean ====
/-
  What the first region leaves, at the extended reals, in the specification's terms: its first output array is the
  mixed rows of the specification and its second the key projection, both as functions of the arrays the region is
  entered with.
-/
import proofs.«157675_g52209622450808_cont_9to1_m_767_6_alg».proof.Proof.R0Value
import proofs.«157675_g52209622450808_cont_9to1_m_767_6_alg».proof.Proof.Val0
import proofs.«157675_g52209622450808_cont_9to1_m_767_6_alg».proof.Proof.Spec
import Mathlib.Logic.Equiv.Fin.Basic
import Mathlib.Data.Fintype.BigOperators
import Mathlib.Algebra.BigOperators.Fin

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-! ## 4096 rows as eight chunks of 512 -/

/-- Row `b` of chunk `t` of an array of 4096 = 8 · 512 rows. -/
def row (t : ℕ) (ht : t < 8) (b : Fin 512) : Fin 4096 := ⟨512 * t + b.val, by omega⟩

/-- A pair (chunk, row within the chunk) is a row of the whole array. -/
def rowEquiv : Fin 8 × Fin 512 ≃ Fin 4096 := finProdFinEquiv

theorem rowEquiv_apply (t : Fin 8) (b : Fin 512) : rowEquiv (t, b) = row t.val t.isLt b :=
  Fin.ext (by
    show b.val + 512 * t.val = 512 * t.val + b.val
    omega)

/-- A sum over the 4096 rows is the sum over the chunks of the sums over each chunk's rows. -/
theorem sum_rows {M : Type*} [AddCommMonoid M] (g : Fin 4096 → M) :
    ∑ t : Fin 8, ∑ b : Fin 512, g (row t.val t.isLt b) = ∑ r : Fin 4096, g r := by
  rw [← Equiv.sum_comp rowEquiv g, Fintype.sum_prod_type]
  simp only [rowEquiv_apply]

/-- Chunk `t`'s share of the Gram entry `(i, j)`. -/
def chunk (fx : Cert.Spec.Arr2 4096 1024) (i j : Fin 1024) (t : ℕ) (ht : t < 8) : EReal :=
  ∑ b : Fin 512, fx (ix2 (row t ht b) i) * fx (ix2 (row t ht b) j)

/-- The Gram entry is the sum of the eight chunks' shares. -/
theorem gram_eq_chunks (fx : Cert.Spec.Arr2 4096 1024) (i j : Fin 1024) :
    Cert.Spec.gram fx i j = ∑ t : Fin 8, chunk fx i j t.val t.isLt :=
  (sum_rows fun r => fx (ix2 r i) * fx (ix2 r j)).symm

variable (V : (c : Dev nD) → (b : Ref sig .tc) → Buf (Elt Ideal) ((c : Thread nD τ).loc b))

/-! ## The region's arrays and blocks under their literal types -/

/-- `fix` as the region finds it. -/
abbrev fixArr (c : Dev nD) : Cert.Spec.Arr2 4096 1024 := V c main_arg2
/-- `other` as the region finds it. -/
abbrev otherArr (c : Dev nD) : Cert.Spec.Arr2 1024 256 := V c main_arg1
/-- The weight Wk as the region finds it. -/
abbrev wkArr (c : Dev nD) : Cert.Spec.Arr2 256 256 := V c main_arg5
/-- The bias row as the region finds it. -/
abbrev biasRow (c : Dev nD) : Cert.Spec.Arr2 1 256 := V c main_v1
/-- The chunk of `fix` the region reads at point `t`. -/
abbrev fixBlk (c : Dev nD) (t : Fin cfg0.N) : Vec Ideal S512x1024 .f32 := iblk0 (F := Ideal) V c 0 t
/-- The region's first output array. -/
abbrev mixedOut (c : Dev nD) : Vec Ideal S1024x256 .f32 := (dat0 (F := Ideal) V c).arrAt 4 cfg0.N
/-- The region's second output array. -/
abbrev keyOut (c : Dev nD) : Vec Ideal S1024x256 .f32 := (dat0 (F := Ideal) V c).arrAt 5 cfg0.N

theorem acc0_zero' (c : Dev nD) (hn : 0 < cfg0.N) : acc0 (F := Ideal) V c 0 hn = k0_pay2 (fixBlk V c ⟨0, hn⟩) :=
  acc0_zero V c hn

theorem acc0_succ' (c : Dev nD) (n : ℕ) (hn : n + 1 < cfg0.N) :
    acc0 (F := Ideal) V c (n + 1) hn = k0_pay3 (fixBlk V c ⟨n + 1, hn⟩) (acc0 (F := Ideal) V c n (Nat.lt_of_succ_lt hn)) :=
  acc0_succ V c n hn

/-- Chunk `n` of `fix` holds rows 512·n … 512·n + 511. -/
theorem fixBlk_apply (c : Dev nD) (n : ℕ) (hn : n < cfg0.N) (h8 : n < 8) (b : Fin 512) (i : Fin 1024) :
    fixBlk V c ⟨n, hn⟩ (ix2 b i) = fixArr V c (ix2 (row n h8 b) i) :=
  iblk0_0_apply V c ⟨n, hn⟩ b i

theorem mixedOut_eq (c : Dev nD) :
    mixedOut V c = k0_pay4 (acc0 (F := Ideal) V c 7 (by rw [show cfg0.N = 8 from N_0]; decide)) (otherArr V c) :=
  arrAt0_4 V c

theorem keyOut_eq (c : Dev nD) : keyOut V c = k0_pay5 (F := Ideal) (otherArr V c) (wkArr V c) (biasRow V c) :=
  arrAt0_5 V c

/-! ## The accumulator after each point -/

/-- A chunk's Gram product is its share of the Gram entry. -/
theorem blk_gram (c : Dev nD) (n : ℕ) (hn : n < cfg0.N) (h8 : n < 8) (i j : Fin 1024) :
    ∑ b : Fin 512, fixBlk V c ⟨n, hn⟩ (ix2 b i) * fixBlk V c ⟨n, hn⟩ (ix2 b j) = chunk (fixArr V c) i j n h8 := by
  unfold chunk
  refine Finset.sum_congr rfl fun b _ => ?_
  rw [fixBlk_apply V c n hn h8 b i, fixBlk_apply V c n hn h8 b j]

/-- After point `n` the accumulator holds the shares of chunks 0 … n. -/
theorem acc0_apply (c : Dev nD) (i j : Fin 1024) : ∀ (n : ℕ) (hn : n < cfg0.N) (h8 : n + 1 ≤ 8),
    acc0 (F := Ideal) V c n hn (ix2 i j)
      = ∑ t : Fin (n + 1), chunk (fixArr V c) i j t.val (Nat.lt_of_lt_of_le t.isLt h8)
  | 0, hn, h8 => by
    refine (congrFun (acc0_zero' V c hn) (ix2 i j)).trans ?_
    refine (Val0.pay2_apply (fixBlk V c ⟨0, hn⟩) i j).trans ?_
    refine (blk_gram V c 0 hn h8 i j).trans ?_
    exact (Fin.sum_univ_one fun t : Fin 1 => chunk (fixArr V c) i j t.val (Nat.lt_of_lt_of_le t.isLt h8)).symm
  | n + 1, hn, h8 => by
    refine (congrFun (acc0_succ' V c n hn) (ix2 i j)).trans ?_
    refine (Val0.pay3_apply (fixBlk V c ⟨n + 1, hn⟩) (acc0 (F := Ideal) V c n (Nat.lt_of_succ_lt hn)) i j).trans ?_
    rw [acc0_apply c i j n (Nat.lt_of_succ_lt hn) (Nat.le_of_succ_le h8), blk_gram V c (n + 1) hn h8 i j,
      Fin.sum_univ_castSucc fun t : Fin (n + 1 + 1) => chunk (fixArr V c) i j t.val (Nat.lt_of_lt_of_le t.isLt h8)]
    rfl

/-- The accumulator after the last chunk is the Gram matrix of the whole of `fix`: eight chunks of 512 rows. -/
theorem acc0_last_apply (c : Dev nD) (i j : Fin 1024) :
    acc0 (F := Ideal) V c 7 (by rw [show cfg0.N = 8 from N_0]; decide) (ix2 i j) = Cert.Spec.gram (V c main_arg2) i j := by
  refine (acc0_apply V c i j 7 _ (Nat.le_refl 8)).trans ?_
  exact (gram_eq_chunks (fixArr V c) i j).symm

/-- The first output array: the specification's mixed rows. -/
theorem mixed_apply (c : Dev nD) (i : Fin 1024) (d : Fin 256) :
    (dat0 (F := Ideal) V c).arrAt 4 cfg0.N (ix2 i d) = Cert.Spec.mixed (V c main_arg2) (V c main_arg1) i d := by
  show mixedOut V c (ix2 i d) = Cert.Spec.mixed (fixArr V c) (otherArr V c) i d
  rw [mixedOut_eq V c]
  refine (Val0.pay4_apply _ (otherArr V c) i d).trans ?_
  have hacc : ∀ p q : Fin 1024,
      acc0 (F := Ideal) V c 7 (by rw [show cfg0.N = 8 from N_0]; decide) (ix2 p q) = Cert.Spec.gram (fixArr V c) p q :=
    fun p q => acc0_last_apply V c p q
  simp only [hacc]
  rfl

/-- The second output array: the specification's projection of `other` by Wk and the bias `bk`, where the reshaped bias
    row the region reads holds `bk`. -/
theorem key_apply (c : Dev nD) (bk : Cert.Spec.Arr1 256)
    (hb : ∀ e : Fin 256, (V c main_v1 : Cert.Spec.Arr2 1 256) (ix2 (0 : Fin 1) e) = bk (ix1 e)) (j : Fin 1024) (e : Fin 256) :
    (dat0 (F := Ideal) V c).arrAt 5 cfg0.N (ix2 j e)
      = Cert.Spec.proj (V c main_arg1 : Cert.Spec.Arr2 1024 256) (V c main_arg5 : Cert.Spec.Arr2 256 256) bk j e := by
  show keyOut V c (ix2 j e) = Cert.Spec.proj (otherArr V c) (wkArr V c) bk j e
  rw [keyOut_eq V c]
  refine (Val0.pay5_apply (otherArr V c) (wkArr V c) (biasRow V c) j e).trans ?_
  unfold Cert.Spec.proj
  exact congrArg ((∑ k : Fin 256, otherArr V c (ix2 j k) * wkArr V c (ix2 e k)) + ·) (hb e)

end Cert.KernelIdeal.Hand

end
-- ==== Proof.R1Value.lean ====
/-
  What the second pallas_call leaves in its output array: rows 2000·t … 2000·t + 1999 are the body's store at point t, a
  function of that block of query rows and of the four arrays the region reads whole.
-/
import proofs.«157675_g52209622450808_cont_9to1_m_767_6_alg».proof.Proof.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- Block `t` of an array of 10000 rows: rows 2000·t … 2000·t + 1999. -/
def rows1 (A : Vec F S10000x256 .f32) (t : Fin 5) : Vec F S2000x256 .f32 :=
  fun y => A (ix2 (⟨2000 * t.val + (y 0).val, by have := t.isLt; have : (y 0).val < 2000 := (y 0).isLt; omega⟩ : Fin 10000) (⟨(y 1).val, (y 1).isLt⟩ : Fin 256))

/-- The zero offsets of a whole-buffer rectangle, as the constant function. -/
theorem hz1 : (![0, 0] : Fin 2 → Nat) = fun _ => 0 := funext fun a => by fin_cases a <;> rfl

/-- What the body leaves in the output's staging buffer: its one covering store's payload, whose five loads read the
    whole input buffers. -/
theorem out1_5_eq (c : Dev nD) (i : grid1.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S1024x256 .f32) (x4 : Vec F S1024x256 .f32) :
    out1_5 c i arg1 harg1 arg2 harg2 arg3 harg3 arg4 harg4 arg5 harg5 arg6 harg6 x0 x1 x2 x3 x4 = k1_pay1 x0 x1 x2 x3 x4 := by
  unfold out1_5
  rw [View.read_writes_eq_canon _ _ _ (cover1_5 c i arg1 harg1 arg2 harg2 arg3 harg3 arg4 harg4 arg5 harg5 arg6 harg6 x0 x1 x2 x3 x4)]
  unfold kernelRun1
  dsimp only
  sl_unfold_words
  rw [View.canon_unit_zero hz1]
  simp only [View.readAt_eq_ld, harg1.read_unread, harg2.read_unread, harg3.read_unread, harg4.read_unread, harg5.read_unread,
    View.ld_unit_zero (S := S2000x256) hz1, View.ld_unit_zero (S := S256x256) hz1, View.ld_unit_zero (S := S1x256) hz1,
    View.ld_unit_zero (S := S1024x256) hz1]

/-- A grid point of the second call as a number below 5. -/
abbrev pt1 (t : Fin cfg1.N) : Fin 5 := ⟨t.val, by have h := t.isLt; have hN : cfg1.N = 5 := N_1; omega⟩

/-- The index maps, decided over the grid: the row-blocked windows sit at block (t, 0), the others at block (0, 0). -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Window 0's block at point `t` is rows 2000·t … 2000·t + 1999 of the query array. -/
theorem iblk1_0_eq (c : Dev nD) (t : Fin cfg1.N) :
    (iblk1 V c 0 t : Vec F S2000x256 .f32) = rows1 (V c main_arg0) (pt1 t) := by
  obtain ⟨e0, e1, -⟩ := idx_facts1 t
  funext j
  unfold iblk1 rows1
  rw [View.read_apply]
  show V c main_arg0 _ = V c main_arg0 _
  congr 1
  funext a
  apply Fin.ext
  match a with
  | ⟨0, _⟩ => show win1_0.index t 0 * 2000 + 1 * (j 0).val = 2000 * t.val + (j 0).val; rw [e0]; omega
  | ⟨1, _⟩ => show win1_0.index t 1 * 256 + 1 * (j 1).val = (j 1).val; rw [e1]; omega

/-- Window 1's one block is the whole projection weight. -/
theorem iblk1_1_eq (c : Dev nD) (t : Fin cfg1.N) :
    (iblk1 V c 1 t : Vec F S256x256 .f32) = V c main_arg3 := by
  obtain ⟨-, -, -, -, e0, e1, -⟩ := idx_facts1 t
  funext j
  unfold iblk1
  rw [View.read_apply]
  show V c main_arg3 _ = V c main_arg3 _
  congr 1
  funext a
  apply Fin.ext
  match a with
  | ⟨0, _⟩ => show win1_1.index t 0 * 256 + 1 * (j 0).val = (j 0).val; rw [e0]; omega
  | ⟨1, _⟩ => show win1_1.index t 1 * 256 + 1 * (j 1).val = (j 1).val; rw [e1]; omega

/-- Window 2's one block is the whole bias row. -/
theorem iblk1_2_eq (c : Dev nD) (t : Fin cfg1.N) :
    (iblk1 V c 2 t : Vec F S1x256 .f32) = V c main_v0 := by
  obtain ⟨-, -, -, -, -, -, e0, e1, -⟩ := idx_facts1 t
  funext j
  unfold iblk1
  rw [View.read_apply]
  show V c main_v0 _ = V c main_v0 _
  congr 1
  funext a
  apply Fin.ext
  match a with
  | ⟨0, _⟩ => show win1_2.index t 0 * 1 + 1 * (j 0).val = (j 0).val; rw [e0]; omega
  | ⟨1, _⟩ => show win1_2.index t 1 * 256 + 1 * (j 1).val = (j 1).val; rw [e1]; omega

/-- Window 3's one block is the whole array of key rows. -/
theorem iblk1_3_eq (c : Dev nD) (t : Fin cfg1.N) :
    (iblk1 V c 3 t : Vec F S1024x256 .f32) = V c main_v2_1 := by
  obtain ⟨-, -, -, -, -, -, -, -, e0, e1, -⟩ := idx_facts1 t
  funext j
  unfold iblk1
  rw [View.read_apply]
  show V c main_v2_1 _ = V c main_v2_1 _
  congr 1
  funext a
  apply Fin.ext
  match a with
  | ⟨0, _⟩ => show win1_3.index t 0 * 1024 + 1 * (j 0).val = (j 0).val; rw [e0]; omega
  | ⟨1, _⟩ => show win1_3.index t 1 * 256 + 1 * (j 1).val = (j 1).val; rw [e1]; omega

/-- Window 4's one block is the whole array of mixed rows. -/
theorem iblk1_4_eq (c : Dev nD) (t : Fin cfg1.N) :
    (iblk1 V c 4 t : Vec F S1024x256 .f32) = V c main_v2_0 := by
  obtain ⟨-, -, -, -, -, -, -, -, -, -, e0, e1⟩ := idx_facts1 t
  funext j
  unfold iblk1
  rw [View.read_apply]
  show V c main_v2_0 _ = V c main_v2_0 _
  congr 1
  funext a
  apply Fin.ext
  match a with
  | ⟨0, _⟩ => show win1_4.index t 0 * 1024 + 1 * (j 0).val = (j 0).val; rw [e0]; omega
  | ⟨1, _⟩ => show win1_4.index t 1 * 256 + 1 * (j 1).val = (j 1).val; rw [e1]; omega

/-- The block of 2000 rows an index of the output array lies in … -/
def blkOf1 (i : S10000x256.Idx) : Fin 5 := ⟨(i 0).val / 2000, by have : (i 0).val < 10000 := idx2_lt0 i; omega⟩
/-- … and its place inside that block. -/
def inBlk1 (i : S10000x256.Idx) : S2000x256.Idx :=
  ix2 (⟨(i 0).val % 2000, Nat.mod_lt _ (by decide)⟩ : Fin 2000) (⟨(i 1).val, idx2_lt1 i⟩ : Fin 256)

/-- The output array as ONE function of the five arrays the region reads: at an index, the body's store on the block of
    query rows the index lies in, at the index's place inside the block. -/
def G1 (A0 : Vec F S10000x256 .f32) (A1 : Vec F S256x256 .f32) (A2 : Vec F S1x256 .f32) (A3 : Vec F S1024x256 .f32)
    (A4 : Vec F S1024x256 .f32) : Vec F S10000x256 .f32 :=
  fun i => k1_pay1 (rows1 A0 (blkOf1 i)) A1 A2 A3 A4 (inBlk1 i)

/-- What point `t` writes back is block `t` of that function of the arrays as the region finds them. -/
theorem flushed1_5_eq (c : Dev nD) (t : Fin cfg1.N) :
    (dat1 V c).flushed 5 t
      = ((cfg1.win 5).blk t).view.read (Elt F) (G1 (V c main_arg0) (V c main_arg3) (V c main_v0) (V c main_v2_1) (V c main_v2_0)) := by
  show (cfg1.win 5).cut (grid1.coords t) ((dat1 V c).after 5 t) = _
  rw [after1_5]
  unfold outAt1
  rw [out1_5_eq, iblk1_0_eq, iblk1_1_eq, iblk1_2_eq, iblk1_3_eq, iblk1_4_eq]
  obtain ⟨-, -, e0, e1, -⟩ := idx_facts1 t
  funext j
  show k1_pay1 (rows1 (V c main_arg0) (pt1 t)) (V c main_arg3) (V c main_v0) (V c main_v2_1) (V c main_v2_0) j
    = G1 (V c main_arg0) (V c main_arg3) (V c main_v0) (V c main_v2_1) (V c main_v2_0) (((cfg1.win 5).blk t).view.emb j)
  have hj : (j 0).val < 2000 := (j 0).isLt
  have h0 : ((((cfg1.win 5).blk t).view.emb j) 0).val = 2000 * t.val + (j 0).val := by
    show win1_5.index t 0 * 2000 + 1 * (j 0).val = _; rw [e0]; omega
  have h1 : ((((cfg1.win 5).blk t).view.emb j) 1).val = (j 1).val := by
    show win1_5.index t 1 * 256 + 1 * (j 1).val = _; rw [e1]; omega
  have hb : blkOf1 (((cfg1.win 5).blk t).view.emb j) = pt1 t := Fin.ext (by
    show ((((cfg1.win 5).blk t).view.emb j) 0).val / 2000 = t.val; rw [h0]; omega)
  have hi : inBlk1 (((cfg1.win 5).blk t).view.emb j) = j := by
    funext a; apply Fin.ext
    match a with
    | ⟨0, _⟩ => show ((((cfg1.win 5).blk t).view.emb j) 0).val % 2000 = (j 0).val; rw [h0]; omega
    | ⟨1, _⟩ => exact h1
  unfold G1
  rw [hb, hi]

/-- An index of the output array is in point `t`'s block iff each coordinate is in the block's range on its axis. -/
theorem mem_blk1_5 (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v3).slice (win1_5.rect t)).set ↔ _
  rw [View.set_slice_whole, Rect.mem_set_unit]
  exact Iff.rfl

/-- Every index of the output array is in some point's block: row `r` is in the block of point `r / 2000`. -/
theorem cover1_5_arr (i : S10000x256.Idx) :
    ∃ t : Fin cfg1.N, (cfg1.win 5).flush t = true ∧ i ∈ ((cfg1.win 5).blk t).view.set := by
  have hi0 : (i 0).val < 10000 := idx2_lt0 i
  have hi1 : (i 1).val < 256 := idx2_lt1 i
  have hN : cfg1.N = 5 := N_1
  let t : Fin cfg1.N := ⟨(i 0).val / 2000, by omega⟩
  obtain ⟨-, -, e0, e1, -⟩ := idx_facts1 t
  refine ⟨t, flush1_5 t, ?_⟩
  rw [mem_blk1_5]
  intro a
  match a with
  | ⟨0, _⟩ => show win1_5.index t 0 * 2000 ≤ (i 0).val ∧ (i 0).val < win1_5.index t 0 * 2000 + 2000
              rw [e0]; show (i 0).val / 2000 * 2000 ≤ (i 0).val ∧ (i 0).val < (i 0).val / 2000 * 2000 + 2000; omega
  | ⟨1, _⟩ => show win1_5.index t 1 * 256 ≤ (i 1).val ∧ (i 1).val < win1_5.index t 1 * 256 + 256
              rw [e1]; omega

/-- So the output array ends holding that function of the arrays. -/
theorem arrAt1_5_eq (c : Dev nD) :
    (dat1 V c).arrAt 5 cfg1.N = G1 (V c main_arg0) (V c main_arg3) (V c main_v0) (V c main_v2_1) (V c main_v2_0) :=
  (dat1 V c).arrAt_eq_of_cover 5 (G1 (V c main_arg0) (V c main_arg3) (V c main_v0) (V c main_v2_1) (V c main_v2_0))
    (fun t _ => flushed1_5_eq V c t) cover1_5_arr

/-- Entry (2000·t + p, d) of the output array after the region is entry (p, d) of the body's store on block `t` of the
    query rows and the whole projection weight, bias row, key rows and mixed rows. -/
theorem arrAt1_5_apply (c : Dev nD) (t : Fin 5) (p : Fin 2000) (d : Fin 256) :
    (dat1 V c).arrAt 5 cfg1.N (ix2 (⟨2000 * t.val + p.val, by have := t.isLt; have := p.isLt; omega⟩ : Fin 10000) d)
      = k1_pay1 (rows1 (V c main_arg0) t) (V c main_arg3) (V c main_v0) (V c main_v2_1) (V c main_v2_0) (ix2 p d) := by
  rw [arrAt1_5_eq]
  have ht : t.val < 5 := t.isLt
  have hp : p.val < 2000 := p.isLt
  have hb : blkOf1 (ix2 (⟨2000 * t.val + p.val, by omega⟩ : Fin 10000) d) = t := Fin.ext (by
    show (2000 * t.val + p.val) / 2000 = t.val; omega)
  have hi : inBlk1 (ix2 (⟨2000 * t.val + p.val, by omega⟩ : Fin 10000) d) = ix2 p d := by
    funext a; apply Fin.ext
    match a with
    | ⟨0, _⟩ => show (2000 * t.val + p.val) % 2000 = p.val; omega
    | ⟨1, _⟩ => rfl
  unfold G1
  rw [hb, hi]

end Cert.KernelIdeal.Hand

end
-- ==== Proof.Val1.lean ====
import proofs.«157675_g52209622450808_cont_9to1_m_767_6_alg».proof.Proof.Gen.KernelIdeal.Skeleton
import proofs.«157675_g52209622450808_cont_9to1_m_767_6_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val1

open Idealize.ShloMosaic Idealize.ShloMosaic.ValueIdx Cert.KernelIdeal Cert.KernelIdeal.Gen

/-!
  One block of 2000 query rows of the attention body, entry by entry. The stored value is read in four stages:
  the projected queries q(p,k) = (∑ k', x(p,k')·wq(k,k')) + b(0,k); the scaled logits a(p,j) = (∑ k, q(p,k)·K(j,k))·w with
  w the word of 1/16; the unnormalised weights e(p,j) = exp (a(p,j) − max_j a(p,j)); and the result
  (∑ j, e(p,j)·M(j,d)) / (∑ j, e(p,j)). Each product is read as the sum over its one contracted axis, each lane
  reduction as the fold or the sum over the row, and each column broadcast as the row's value.
-/

/-! ## The three products read at an entry -/

theorem lhs_q_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem lhs_q_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
theorem rhs_q_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem rhs_q_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q

/-- The projection's product: row `p` of the left operand against row `k` of the right one. -/
theorem mm_q (l : FVec Ideal S2000x256 .bf16) (r : FVec Ideal S256x256 .bf16) (p : Fin 2000) (k : Fin 256) :
    matmul dot_S2000x256_S256x256_S2000x256_1_1_0_0_n_n none l r (constant (F := Ideal) S2000x256 .f32 0x00000000#32) (ix2 p k)
      = ∑ k' : Fin 256, l (ix2 p k') * r (ix2 k k') := by
  simp only [matmul]
  rw [Ideal.matmul_constant_zero_apply, ← Equiv.sum_comp (contrEquiv1 dot_S2000x256_S256x256_S2000x256_1_1_0_0_n_n 256 rfl rfl).symm]
  refine Finset.sum_congr rfl fun k' _ => ?_
  have hk := contrEquiv1_symm_val dot_S2000x256_S256x256_S2000x256_1_1_0_0_n_n 256 rfl rfl k'
  have el : dot_S2000x256_S256x256_S2000x256_1_1_0_0_n_n.lhsIdx (ix2 p k) ((contrEquiv1 dot_S2000x256_S256x256_S2000x256_1_1_0_0_n_n 256 rfl rfl).symm k') = ix2 p k' := funext fun a => Fin.ext (by
    match a with
    | ⟨0, _⟩ => exact lhs_q_0 _ _
    | ⟨1, _⟩ => exact (lhs_q_1 _ _).trans hk)
  have er : dot_S2000x256_S256x256_S2000x256_1_1_0_0_n_n.rhsIdx (ix2 p k) ((contrEquiv1 dot_S2000x256_S256x256_S2000x256_1_1_0_0_n_n 256 rfl rfl).symm k') = ix2 k k' := funext fun a => Fin.ext (by
    match a with
    | ⟨0, _⟩ => exact rhs_q_0 _ _
    | ⟨1, _⟩ => exact (rhs_q_1 _ _).trans hk)
  rw [el, er]

theorem lhs_a_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
theorem lhs_a_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
theorem rhs_a_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
theorem rhs_a_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q

/-- The logits' product: row `p` of the queries against row `j` of the keys. -/
theorem mm_a (l : FVec Ideal S2000x256 .bf16) (r : FVec Ideal S1024x256 .bf16) (p : Fin 2000) (j : Fin 1024) :
    matmul dot_S2000x256_S1024x256_S2000x1024_1_1_0_0_n_n none l r (constant (F := Ideal) S2000x1024 .f32 0x00000000#32) (ix2 p j)
      = ∑ k : Fin 256, l (ix2 p k) * r (ix2 j k) := by
  simp only [matmul]
  rw [Ideal.matmul_constant_zero_apply, ← Equiv.sum_comp (contrEquiv1 dot_S2000x256_S1024x256_S2000x1024_1_1_0_0_n_n 256 rfl rfl).symm]
  refine Finset.sum_congr rfl fun k _ => ?_
  have hk := contrEquiv1_symm_val dot_S2000x256_S1024x256_S2000x1024_1_1_0_0_n_n 256 rfl rfl k
  have el : dot_S2000x256_S1024x256_S2000x1024_1_1_0_0_n_n.lhsIdx (ix2 p j) ((contrEquiv1 dot_S2000x256_S1024x256_S2000x1024_1_1_0_0_n_n 256 rfl rfl).symm k) = ix2 p k := funext fun a => Fin.ext (by
    match a with
    | ⟨0, _⟩ => exact lhs_a_0 _ _
    | ⟨1, _⟩ => exact (lhs_a_1 _ _).trans hk)
  have er : dot_S2000x256_S1024x256_S2000x1024_1_1_0_0_n_n.rhsIdx (ix2 p j) ((contrEquiv1 dot_S2000x256_S1024x256_S2000x1024_1_1_0_0_n_n 256 rfl rfl).symm k) = ix2 j k := funext fun a => Fin.ext (by
    match a with
    | ⟨0, _⟩ => exact rhs_a_0 _ _
    | ⟨1, _⟩ => exact (rhs_a_1 _ _).trans hk)
  rw [el, er]

theorem lhs_o_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
theorem lhs_o_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
theorem rhs_o_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
theorem rhs_o_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl

/-- The weighted sum's product: row `p` of the weights against column `d` of the mixed rows. -/
theorem mm_o (l : FVec Ideal S2000x1024 .bf16) (r : FVec Ideal S1024x256 .bf16) (p : Fin 2000) (d : Fin 256) :
    matmul dot_S2000x1024_S1024x256_S2000x256_1_0_0_1_n_n none l r (constant (F := Ideal) S2000x256 .f32 0x00000000#32) (ix2 p d)
      = ∑ j : Fin 1024, l (ix2 p j) * r (ix2 j d) := by
  simp only [matmul]
  rw [Ideal.matmul_constant_zero_apply, ← Equiv.sum_comp (contrEquiv1 dot_S2000x1024_S1024x256_S2000x256_1_0_0_1_n_n 1024 rfl rfl).symm]
  refine Finset.sum_congr rfl fun j _ => ?_
  have hk := contrEquiv1_symm_val dot_S2000x1024_S1024x256_S2000x256_1_0_0_1_n_n 1024 rfl rfl j
  have el : dot_S2000x1024_S1024x256_S2000x256_1_0_0_1_n_n.lhsIdx (ix2 p d) ((contrEquiv1 dot_S2000x1024_S1024x256_S2000x256_1_0_0_1_n_n 1024 rfl rfl).symm j) = ix2 p j := funext fun a => Fin.ext (by
    match a with
    | ⟨0, _⟩ => exact lhs_o_0 _ _
    | ⟨1, _⟩ => exact (lhs_o_1 _ _).trans hk)
  have er : dot_S2000x1024_S1024x256_S2000x256_1_0_0_1_n_n.rhsIdx (ix2 p d) ((contrEquiv1 dot_S2000x1024_S1024x256_S2000x256_1_0_0_1_n_n 1024 rfl rfl).symm j) = ix2 j d := funext fun a => Fin.ext (by
    match a with
    | ⟨0, _⟩ => exact (rhs_o_0 _ _).trans hk
    | ⟨1, _⟩ => exact rhs_o_1 _ _)
  rw [el, er]

/-! ## The layout operations read at an entry -/

/-- The bias row, cast to its own shape and broadcast over the rows, reads the bias at the column. -/
theorem bias_apply (b2 : Vec Ideal S1x256 .f32) (h1 : S1x256.ShapeCasts S1x256) (h2 : S1x256.Broadcasts S2000x256)
    (p : Fin 2000) (k : Fin 256) :
    broadcastTo S2000x256 (shapeCast S1x256 b2 h1) h2 (ix2 p k) = b2 (ix2 (0 : Fin 1) k) := by
  rw [shapeCast_self]
  exact broadcastTo_1b_ab_apply b2 h2 p k

/-- A vector of row values, cast to a column and broadcast along the rows, reads the row's value at every column. -/
theorem col_apply {α : Type} {a b : ℕ} (m : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (j : Fin b) :
    broadcastTo ⟨2, ![a, b]⟩ (shapeCast ⟨2, ![a, 1]⟩ m h1) h2 (ix2 p j) = m (ix1 p) := by
  refine (broadcastTo_apply _ h2 (ix2 p j) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply m h1 _ _ (by
      rw [Shape.rowMajor_val_one, Shape.rowMajor_val_two]
      show p.val = p.val * 1 + 0
      omega)

/-! ## The two lane reductions read at a row -/

/-- The lane maximum of row `p`: the fold of `max` from −∞ over the row's entries. -/
theorem lanemax_apply (v : FVec Ideal S2000x1024 .f32) (h : S2000x1024.Reduces [1] S2000) (hφ : FKind.Formats .f32)
    (hacc : (0xFF800000#32 : BitVec 32) = 0xFF800000#32) (p : Fin 2000) :
    multiReduction (F := Ideal) .maximumf [1] S2000 v 0xFF800000#32 h hφ hacc (ix1 p)
      = Cert.Spec.rowmax (fun j : Fin 1024 => v (ix2 p j)) := by
  refine (Ideal.multiReduction_maximumf_single v _ h hφ hacc (ix1 p)).trans ?_
  have e : (v ∘ h.lift (ix1 p)) = fun j : Fin 1024 => v (ix2 p j) :=
    funext fun j => congrArg v (funext fun a => Fin.ext (by
      match a with
      | ⟨0, _⟩ => rfl
      | ⟨1, _⟩ => rfl))
  rw [e]
  rfl

/-- The lane sum of row `p`: the sum of the row's entries. -/
theorem lanesum_apply (v : FVec Ideal S2000x1024 .f32) (h : S2000x1024.Reduces [1] S2000) (hφ : FKind.Formats .f32)
    (hacc : (0x00000000#32 : BitVec 32) = 0x00000000#32) (p : Fin 2000) :
    multiReduction (F := Ideal) .add [1] S2000 v 0x00000000#32 h hφ hacc (ix1 p) = ∑ j : Fin 1024, v (ix2 p j) := by
  refine (Ideal.multiReduction_add_single v _ h hφ hacc (ix1 p)).trans ?_
  refine Finset.sum_congr rfl fun j _ => congrArg v (funext fun a => Fin.ext (by
    match a with
    | ⟨0, _⟩ => rfl
    | ⟨1, _⟩ => rfl))

/-! ## The body's quantities, stage by stage -/

/-- The projected queries: the block's rows against the weight's rows, plus the bias. -/
def qv (x : Vec Ideal S2000x256 .f32) (wq : Vec Ideal S256x256 .f32) (b2 : Vec Ideal S1x256 .f32) : FVec Ideal S2000x256 .f32 :=
  addf (matmul dot_S2000x256_S256x256_S2000x256_1_1_0_0_n_n none (truncf .bf16 x bitsLt_bf16_f32) (truncf .bf16 wq bitsLt_bf16_f32)
      (constant (F := Ideal) S2000x256 .f32 0x00000000#32))
    (broadcastTo S2000x256 (shapeCast S1x256 b2 shapeCasts_S1x256_S1x256) broadcasts_S1x256_S2000x256)

/-- The scaled logits: the queries against the key rows, times the scale. -/
def av (q : FVec Ideal S2000x256 .f32) (K : Vec Ideal S1024x256 .f32) : FVec Ideal S2000x1024 .f32 :=
  mulf (matmul dot_S2000x256_S1024x256_S2000x1024_1_1_0_0_n_n none (truncf .bf16 q bitsLt_bf16_f32)
      (truncf .bf16 (shapeCast S1024x256 K shapeCasts_S1024x256_S1024x256) bitsLt_bf16_f32) (constant (F := Ideal) S2000x1024 .f32 0x00000000#32))
    (broadcast S2000x1024 (Scalar.ofBits (F := Ideal) .f32 0x3D800000#32))

/-- The unnormalised weights: the exponential of the logits less their row maximum. -/
def ev (a : FVec Ideal S2000x1024 .f32) : FVec Ideal S2000x1024 .f32 :=
  exp (subf a (broadcastTo S2000x1024
    (shapeCast S2000x1 (multiReduction (F := Ideal) .maximumf [1] S2000 a 0xFF800000#32 reduces_S2000x1024_S2000 (.inl rfl) rfl) shapeCasts_S2000_S2000x1)
    broadcasts_S2000x1_S2000x1024))

/-- The normalised result: the weights against the mixed rows, over the weights' row sums. -/
def ov (e : FVec Ideal S2000x1024 .f32) (om : Vec Ideal S1024x256 .f32) : FVec Ideal S2000x256 .f32 :=
  divf (matmul dot_S2000x1024_S1024x256_S2000x256_1_0_0_1_n_n none (truncf .bf16 e bitsLt_bf16_f32)
      (truncf .bf16 (shapeCast S1024x256 om shapeCasts_S1024x256_S1024x256) bitsLt_bf16_f32) (constant (F := Ideal) S2000x256 .f32 0x00000000#32))
    (broadcastTo S2000x256
      (shapeCast S2000x1 (multiReduction (F := Ideal) .add [1] S2000 e 0x00000000#32 reduces_S2000x1024_S2000 (.inl rfl) rfl) shapeCasts_S2000_S2000x1)
      broadcasts_S2000x1_S2000x256)

/-- The body's stored value is the composition of the four stages. -/
theorem pay1_eq_stages (x : Vec Ideal S2000x256 .f32) (wq : Vec Ideal S256x256 .f32) (b2 : Vec Ideal S1x256 .f32)
    (K om : Vec Ideal S1024x256 .f32) :
    k1_pay1 (F := Ideal) x wq b2 K om = ov (ev (av (qv x wq b2) K)) om := rfl

theorem qv_apply (x : Vec Ideal S2000x256 .f32) (wq : Vec Ideal S256x256 .f32) (b2 : Vec Ideal S1x256 .f32) (p : Fin 2000) (k : Fin 256) :
    qv x wq b2 (ix2 p k) = (∑ k' : Fin 256, x (ix2 p k') * wq (ix2 k k')) + b2 (ix2 (0 : Fin 1) k) := by
  unfold qv
  rw [addf_apply, mm_q, bias_apply]
  rfl

theorem av_apply (q : FVec Ideal S2000x256 .f32) (K : Vec Ideal S1024x256 .f32) (p : Fin 2000) (j : Fin 1024) :
    av q K (ix2 p j) = (∑ k : Fin 256, q (ix2 p k) * K (ix2 j k)) * Ideal.ofBits .f32 Cert.Spec.scaleWord := by
  unfold av
  rw [mulf_apply, mm_a, shapeCast_self]
  rfl

theorem ev_apply (a : FVec Ideal S2000x1024 .f32) (p : Fin 2000) (j : Fin 1024) :
    ev a (ix2 p j) = Cert.Spec.pexp (fun j' : Fin 1024 => a (ix2 p j')) j := by
  unfold ev
  show Ideal.exp (a (ix2 p j) - _) = _
  rw [col_apply, lanemax_apply]
  rfl

theorem ov_apply (e : FVec Ideal S2000x1024 .f32) (om : Vec Ideal S1024x256 .f32) (p : Fin 2000) (d : Fin 256) :
    ov e om (ix2 p d) = Ideal.div (∑ j : Fin 1024, e (ix2 p j) * om (ix2 j d)) (∑ j : Fin 1024, e (ix2 p j)) := by
  unfold ov
  rw [divf_apply, mm_o, shapeCast_self, col_apply, lanesum_apply]
  rfl

/-- One block of 2000 query rows: entry (p, d) of the attention body's store is `Spec.outOf` of that row's scaled
    logits (the row's projection against the key rows `K`, times 1/16) and column `d` of the mixed rows `om`. -/
theorem pay1_apply (x : Vec Ideal S2000x256 .f32) (wq : Vec Ideal S256x256 .f32) (b2 : Vec Ideal S1x256 .f32)
    (K om : Vec Ideal S1024x256 .f32) (p : Fin 2000) (d : Fin 256) :
    k1_pay1 (F := Ideal) x wq b2 K om (ix2 p d)
      = Cert.Spec.outOf
          (fun j : Fin 1024 => (∑ k : Fin 256, ((∑ k' : Fin 256, x (ix2 p k') * wq (ix2 k k')) + b2 (ix2 (0 : Fin 1) k)) * K (ix2 j k))
            * Ideal.ofBits .f32 Cert.Spec.scaleWord)
          (fun j : Fin 1024 => om (ix2 j d)) := by
  rw [pay1_eq_stages, ov_apply]
  simp only [ev_apply, av_apply, qv_apply]
  rfl

end Cert.KernelIdeal.Val1
end
-- ==== Proof.KernelValue.lean ====
/-
  The kernel program's result at the extended reals is the specification: the second pallas_call's output array, read
  at row r = 2000·t + p and column d, is the specification's `out` of the seven arguments at (r, d).
-/
import proofs.«157675_g52209622450808_cont_9to1_m_767_6_alg».proof.Proof.Boundary
import proofs.«157675_g52209622450808_cont_9to1_m_767_6_alg».proof.Proof.Glue0
import proofs.«157675_g52209622450808_cont_9to1_m_767_6_alg».proof.Proof.R1Value
import proofs.«157675_g52209622450808_cont_9to1_m_767_6_alg».proof.Proof.Val1
import proofs.«157675_g52209622450808_cont_9to1_m_767_6_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The result array, entry by entry. -/
theorem kernel_result_apply (c : Dev nD) (r : Fin 10000) (d : Fin 256) :
    (dat1 (F := Ideal) (U2 m ρ) c).arrAt 5 cfg1.N (ix2 r d)
      = Cert.Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) r d := by
  -- r = 2000·t + p
  obtain ⟨t, p, hr⟩ : ∃ (t : Fin 5) (p : Fin 2000),
      r = (⟨2000 * t.val + p.val, by have := t.isLt; have := p.isLt; omega⟩ : Fin 10000) :=
    ⟨⟨r.val / 2000, by have := r.isLt; omega⟩, ⟨r.val % 2000, Nat.mod_lt _ (by decide)⟩, Fin.ext (by simp only; omega)⟩
  subst hr
  rw [arrAt1_5_apply (U2 m ρ) c t p d, Val1.pay1_apply]
  unfold Cert.Spec.out
  refine congrArg₂ Cert.Spec.outOf (funext fun j => ?_) (funext fun j => ?_)
  · -- the scaled logit of row r against key row j
    unfold Cert.Spec.logit
    refine congrArg (fun a : EReal => a * Ideal.ofBits .f32 Cert.Spec.scaleWord) (Finset.sum_congr rfl fun k _ => ?_)
    refine congrArg₂ (fun a b : EReal => a * b) ?_ ?_
    · -- the query projection of row r at k
      unfold Cert.Spec.proj
      rw [U2_main_arg3, U2_main_v0_apply]
      refine congrArg (fun a : EReal => a + _) (Finset.sum_congr rfl fun k' _ => ?_)
      refine congrArg (fun a : EReal => a * _) ?_
      unfold rows1
      rw [U2_main_arg0]
    · -- the key projection of row j at k
      rw [U2_main_v2_1, key_apply (U1 m ρ) c (m ((c.tc : Thread nD τ).loc main_arg6)) (fun e => U1_main_v1_apply m ρ c e) j k,
        U1_main_arg1, U1_main_arg5]
  · -- the mixed rows at (j, d)
    rw [U2_main_v2_0, mixed_apply (U1 m ρ) c j d, U1_main_arg2, U1_main_arg1]

end Cert.KernelIdeal.Hand

end
-- ==== Proof.RefRead.lean ====
import proofs.«157675_g52209622450808_cont_9to1_m_767_6_alg».proof.Proof.Gen.ReferenceIdeal.Read
import proofs.«157675_g52209622450808_cont_9to1_m_767_6_alg».proof.Proof.Spec

noncomputable section

namespace Cert.RefRead

open Idealize.ShloMosaic Idealize.ShloMosaic.ValueIdx Cert.Spec Cert.ReferenceIdeal Cert.ReferenceIdeal.Gen Cert.ReferenceIdeal.Read

/-- Two rank-2 indices agree when their coordinates do. -/
local macro "idx2" : tactic => `(tactic| (funext a; match a with | ⟨0, _⟩ => rfl | ⟨1, _⟩ => rfl))
/-- Two rank-1 indices agree when their coordinate does. -/
local macro "idx1" : tactic => `(tactic| (funext a; match a with | ⟨0, _⟩ => rfl))

section Stages

variable (x0 : Arr2 10000 256) (x1 : Arr2 1024 256) (x2 : Arr2 4096 1024) (x3 : Arr2 256 256) (x4 : Arr1 256)
    (x5 : Arr2 256 256) (x6 : Arr1 256)

/-- The query projection Q = main · Wqᵀ + bq at (r, e): the product against the transposed weight reads row `e` of
    `Wq`, and the bias, broadcast along the rows, reads its entry `e`. -/
theorem val_q_apply (r : Fin 10000) (e : Fin 256) :
    val_main_v4 (F := Ideal) x0 x3 x4 (ix2 r e) = proj x0 x3 x4 r e := by
  rw [val_main_v4_apply, val_main_v1_apply, val_main_v3_apply, val_main_v2_apply, Ideal.addf_def]
  have h1 : ∀ k : Fin 256, lidx_main_v1 (ix2 r e) k = ix2 r k := fun k => by idx2
  have h2 : ∀ k : Fin 256, idx_main_v0 (ridx_main_v1 (ix2 r e) k) = ix2 e k := fun k => by idx2
  have h3 : idx_main_v2 (idx_main_v3 (ix2 r e)) = ix1 e := by idx1
  simp only [val_main_v0_apply, h1, h2, h3]
  rfl

/-- The key projection K = other · Wkᵀ + bk at (j, e). -/
theorem val_k_apply (j : Fin 1024) (e : Fin 256) :
    val_main_v9 (F := Ideal) x1 x5 x6 (ix2 j e) = proj x1 x5 x6 j e := by
  rw [val_main_v9_apply, val_main_v6_apply, val_main_v8_apply, val_main_v7_apply, Ideal.addf_def]
  have h1 : ∀ k : Fin 256, lidx_main_v6 (ix2 j e) k = ix2 j k := fun k => by idx2
  have h2 : ∀ k : Fin 256, idx_main_v5 (ridx_main_v6 (ix2 j e) k) = ix2 e k := fun k => by idx2
  have h3 : idx_main_v7 (idx_main_v8 (ix2 j e)) = ix1 e := by idx1
  simp only [val_main_v5_apply, h1, h2, h3]
  rfl

/-- The logit at (r, j): Q's row `r` against K's row `j` (the product is taken with Kᵀ), divided by the constant 16
    broadcast over the array. -/
theorem val_logit_apply (r : Fin 10000) (j : Fin 1024) :
    val_main_v13 (F := Ideal) x0 x1 x3 x4 x5 x6 (ix2 r j) = logitRef x0 x3 x4 x1 x5 x6 r j := by
  rw [val_main_v13_apply, val_main_v11_apply, val_main_v12_apply, val_main_cst_apply, Ideal.hostDivf_def, Ideal.ofBits_def]
  have h1 : ∀ k : Fin 256, lidx_main_v11 (ix2 r j) k = ix2 r k := fun k => by idx2
  have h2 : ∀ k : Fin 256, idx_main_v10 (ridx_main_v11 (ix2 r j) k) = ix2 j k := fun k => by idx2
  simp only [val_main_v10_apply, h1, h2, val_q_apply, val_k_apply]
  rfl

/-- The row maximum at `r`: the reduction over the second axis is the fold of `max`, from the initial value −∞, over
    the 1024 logits of row `r`. -/
theorem val_rowmax_apply (r : Fin 10000) :
    val_main_v14 (F := Ideal) x0 x1 x3 x4 x5 x6 (ix1 r) = rowmax (logitRef x0 x3 x4 x1 x5 x6 r) := by
  have hred : S10000x1024.Reduces [1] S10000 := by decide
  unfold val_main_v14
  refine (Host.reduce_eq_fold_single (FloatOps.maximumf (F := Ideal) (φ := .f32)) _ _
    reducesTo_S10000x1024_S10000_d1 hred h_S_ (ix1 r)).trans ?_
  have hf : (val_main_v13 (F := Ideal) x0 x1 x3 x4 x5 x6 ∘ hred.lift (ix1 r)) = logitRef x0 x3 x4 x1 x5 x6 r :=
    funext fun k => by
      have hk : hred.lift (ix1 r) k = ix2 r k := by
        funext a; exact Fin.ext (by match a with | ⟨0, _⟩ => rfl | ⟨1, _⟩ => rfl)
      show val_main_v13 (F := Ideal) x0 x1 x3 x4 x5 x6 (hred.lift (ix1 r) k) = _
      rw [hk]; exact val_logit_apply x0 x1 x3 x4 x5 x6 r k
  rw [hf]
  rfl

/-- The maximum the reference subtracts: the row maximum joined with a broadcast −∞, which changes nothing since the
    fold already starts from that value. -/
theorem val_rowmax'_apply (r : Fin 10000) :
    val_main_v16 (F := Ideal) x0 x1 x3 x4 x5 x6 (ix1 r) = rowmax (logitRef x0 x3 x4 x1 x5 x6 r) := by
  rw [val_main_v16_apply, val_main_v15_apply, val_main_cst_1_apply, val_rowmax_apply, Ideal.maximumf_def, Ideal.ofBits_def]
  exact max_eq_right ((Finset.le_fold_max _).2 (Or.inl le_rfl))

/-- The unnormalised softmax weight at (r, j): the exponential of the logit less its row's maximum. -/
theorem val_pexp_apply (r : Fin 10000) (j : Fin 1024) :
    val_main_v20 (F := Ideal) x0 x1 x3 x4 x5 x6 (ix2 r j) = pexp (logitRef x0 x3 x4 x1 x5 x6 r) j := by
  rw [val_main_v20_apply, val_main_v19_apply, val_main_v18_apply, val_main_v17_apply, Ideal.hostUnary_exp_def, Ideal.subf_def]
  have h1 : idx_main_v17 (idx_main_v18 (ix2 r j)) = ix1 r := by idx1
  rw [h1, val_rowmax'_apply, val_logit_apply]
  rfl

/-- The softmax denominator at `r`: the sum of the row's 1024 weights, from the initial value zero. -/
theorem val_denom_apply (r : Fin 10000) :
    val_main_v21 (F := Ideal) x0 x1 x3 x4 x5 x6 (ix1 r) = denom (logitRef x0 x3 x4 x1 x5 x6 r) := by
  rw [val_main_v21_apply, val_main_cst_2_apply, Ideal.ofBits_def, Ideal.ofBits_zero_f32, zero_add]
  have h1 : ∀ k : Fin 1024, idx_main_v21 (ix1 r) k = ix2 r k := fun k => by idx2
  simp only [h1, val_pexp_apply]
  rfl

/-- The normalised softmax weight at (r, j). -/
theorem val_weight_apply (r : Fin 10000) (j : Fin 1024) :
    val_main_v24 (F := Ideal) x0 x1 x3 x4 x5 x6 (ix2 r j)
      = Ideal.div (pexp (logitRef x0 x3 x4 x1 x5 x6 r) j) (denom (logitRef x0 x3 x4 x1 x5 x6 r)) := by
  rw [val_main_v24_apply, val_main_v23_apply, val_main_v22_apply, Ideal.hostDivf_def]
  have h1 : idx_main_v22 (idx_main_v23 (ix2 r j)) = ix1 r := by idx1
  rw [h1, val_denom_apply, val_pexp_apply]

/-- The Gram matrix G = fixᵀ · fix at (i, j): the transposed left operand reads column `i` of `fix`. -/
theorem val_gram_apply (i j : Fin 1024) :
    val_main_v26 (F := Ideal) x2 (ix2 i j) = gram x2 i j := by
  rw [val_main_v26_apply]
  have h1 : ∀ k : Fin 4096, idx_main_v25 (lidx_main_v26 (ix2 i j) k) = ix2 k i := fun k => by idx2
  have h2 : ∀ k : Fin 4096, ridx_main_v26 (ix2 i j) k = ix2 k j := fun k => by idx2
  simp only [val_main_v25_apply, h1, h2]
  rfl

/-- Its entrywise square root at (i, j). -/
theorem val_sq_apply (i j : Fin 1024) :
    val_main_v27 (F := Ideal) x2 (ix2 i j) = Spec.sq x2 i j := by
  rw [val_main_v27_apply, val_gram_apply, Ideal.hostUnary_sqrt_def]
  rfl

/-- The column sum at `j`: the reduction over the FIRST axis sums the entries (i, j) over the row index `i`, from the
    initial value zero. -/
theorem val_colsum_apply (j : Fin 1024) :
    val_main_v28 (F := Ideal) x2 (ix1 j) = colsum x2 j := by
  rw [val_main_v28_apply, val_main_cst_3_apply, Ideal.ofBits_def, Ideal.ofBits_zero_f32, zero_add]
  have h1 : ∀ k : Fin 1024, idx_main_v28 (ix1 j) k = ix2 k j := fun k => by idx2
  simp only [h1, val_sq_apply]
  rfl

/-- The column-normalised square root at (i, j): entry (i, j) over the sum of column `j`, broadcast down the rows. -/
theorem val_sqn_apply (i j : Fin 1024) :
    val_main_v31 (F := Ideal) x2 (ix2 i j) = Ideal.div (Spec.sq x2 i j) (colsum x2 j) := by
  rw [val_main_v31_apply, val_main_v30_apply, val_main_v29_apply, Ideal.hostDivf_def]
  have h1 : idx_main_v29 (idx_main_v30 (ix2 i j)) = ix1 j := by idx1
  rw [h1, val_colsum_apply, val_sq_apply]

/-- The mixed rows at (i, d): the normalised matrix's row `i` against column `d` of `other`. -/
theorem val_mixed_apply (i : Fin 1024) (d : Fin 256) :
    val_main_v32 (F := Ideal) x1 x2 (ix2 i d) = mixedRef x2 x1 i d := by
  rw [val_main_v32_apply]
  have h1 : ∀ k : Fin 1024, lidx_main_v32 (ix2 i d) k = ix2 i k := fun k => by idx2
  have h2 : ∀ k : Fin 1024, ridx_main_v32 (ix2 i d) k = ix2 k d := fun k => by idx2
  simp only [h1, h2, val_sqn_apply]
  rfl

end Stages

/-- The reference's result stage, read at an index through its forty operations, is the reference's arrangement
    `Spec.outRef` of the arguments. -/
theorem val_out_apply (x0 : Arr2 10000 256) (x1 : Arr2 1024 256) (x2 : Arr2 4096 1024) (x3 : Arr2 256 256) (x4 : Arr1 256)
    (x5 : Arr2 256 256) (x6 : Arr1 256) (r : Fin 10000) (d : Fin 256) :
    val_main_v33 (F := Ideal) x0 x1 x2 x3 x4 x5 x6 (ix2 r d) = outRef x0 x1 x2 x3 x4 x5 x6 r d := by
  rw [val_main_v33_apply]
  have h1 : ∀ k : Fin 1024, lidx_main_v33 (ix2 r d) k = ix2 r k := fun k => by idx2
  have h2 : ∀ k : Fin 1024, ridx_main_v33 (ix2 r d) k = ix2 k d := fun k => by idx2
  simp only [h1, h2, val_weight_apply, val_mixed_apply]
  rfl

end Cert.RefRead

end
-- ==== Proof.RefAlgebra.lean ====
import proofs.«157675_g52209622450808_cont_9to1_m_767_6_alg».proof.Proof.Spec
import Mathlib.Data.EReal.Inv
import Mathlib.Data.Finset.Fold

noncomputable section

namespace Cert.RefAlgebra

open Idealize.ShloMosaic Idealize.ShloMosaic.ValueIdx Cert.Spec

/-! ## The three f32 words as extended reals -/

/-- The word `0x41800000` is the real 16. -/
theorem sixteen_eq : Ideal.ofBits .f32 sixteenWord = ((16 : ℝ) : EReal) := by
  show Ideal.ofBits .f32 0x41800000#32 = _
  simp [Ideal.ofBits, Ideal.ieee, -EReal.coe_mul]; norm_num

/-- The word `0x3D800000` is the real 1/16. -/
theorem scale_eq : Ideal.ofBits .f32 scaleWord = (((1 : ℝ) / 16 : ℝ) : EReal) := by
  show Ideal.ofBits .f32 0x3D800000#32 = _
  simp [Ideal.ofBits, Ideal.ieee, -EReal.coe_mul]; norm_num

/-- The word `0xFF800000` is −∞. -/
theorem negInf_eq : Ideal.ofBits .f32 negInfWord = ⊥ := by
  show Ideal.ofBits .f32 0xFF800000#32 = _
  simp [Ideal.ofBits, Ideal.ieee]

/-! ## Finite sums of reals inside the extended reals -/

/-- The embedding of the reals commutes with finite sums. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real-valued terms is real-valued. -/
theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [← coe_sum]; exact Finset.sum_congr rfl (fun i _ => hg i)⟩

/-- Multiplication by a nonnegative real distributes over a finite sum of arbitrary extended reals. -/
theorem nonneg_real_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-! ## The logits: dividing by 16 is multiplying by 1/16, and they are real -/

/-- The reference's logit and the kernel's agree, at every extended real value of the product. -/
theorem logitRef_eq_logit (main : Arr2 10000 256) (wq : Arr2 256 256) (bq : Arr1 256) (other : Arr2 1024 256)
    (wk : Arr2 256 256) (bk : Arr1 256) (r : Fin 10000) (j : Fin 1024) :
    logitRef main wq bq other wk bk r j = logit main wq bq other wk bk r j := by
  unfold logitRef logit
  rw [sixteen_eq, scale_eq, Ideal.div_coe (by norm_num)]

/-- A linear layer of finite arrays is real-valued. -/
theorem proj_real {R : Nat} (x : Arr2 R 256) (w : Arr2 256 256) (b : Arr1 256) (hx : Finite x) (hw : Finite w)
    (hb : Finite b) (r : Fin R) (e : Fin 256) : ∃ v : ℝ, proj x w b r e = (v : EReal) := by
  unfold proj
  obtain ⟨s, hs⟩ := real_sum Finset.univ (fun k : Fin 256 => x (ix2 r k) * w (ix2 e k)) (fun k => by
    obtain ⟨a, ha⟩ := hx (ix2 r k)
    obtain ⟨c, hc⟩ := hw (ix2 e k)
    exact ⟨a * c, by rw [ha, hc, EReal.coe_mul]⟩)
  obtain ⟨c, hc⟩ := hb (ix1 e)
  exact ⟨s + c, by rw [hs, hc, EReal.coe_add]⟩

/-- The logits of finite inputs are real-valued. -/
theorem logit_real (main : Arr2 10000 256) (wq : Arr2 256 256) (bq : Arr1 256) (other : Arr2 1024 256)
    (wk : Arr2 256 256) (bk : Arr1 256)
    (h0 : Finite main) (h1 : Finite other) (h3 : Finite wq) (h4 : Finite bq) (h5 : Finite wk) (h6 : Finite bk)
    (r : Fin 10000) (j : Fin 1024) : ∃ v : ℝ, logit main wq bq other wk bk r j = (v : EReal) := by
  unfold logit
  obtain ⟨s, hs⟩ := real_sum Finset.univ (fun k : Fin 256 => proj main wq bq r k * proj other wk bk j k) (fun k => by
    obtain ⟨a, ha⟩ := proj_real main wq bq h0 h3 h4 r k
    obtain ⟨c, hc⟩ := proj_real other wk bk h1 h5 h6 j k
    exact ⟨a * c, by rw [ha, hc, EReal.coe_mul]⟩)
  exact ⟨s * (1 / 16), by rw [hs, scale_eq, EReal.coe_mul]⟩

/-! ## The mixed rows: the division by a nonzero column sum moves across the product -/

/-- For a divisor that is not zero, `(s / c) · o = s · (o / c)`, at every extended real. -/
theorem div_mul_eq_mul_div {s o c : EReal} (hc : c ≠ 0) : Ideal.div s c * o = s * Ideal.div o c := by
  unfold Ideal.div
  rw [if_neg hc, if_neg hc, mul_assoc, mul_comm c⁻¹ o]

/-- The reference's mixed rows and the kernel's agree where no column sum is zero. -/
theorem mixedRef_eq_mixed (fix : Arr2 4096 1024) (other : Arr2 1024 256) (hc : ∀ j : Fin 1024, colsum fix j ≠ 0)
    (i : Fin 1024) (d : Fin 256) : mixedRef fix other i d = mixed fix other i d := by
  unfold mixedRef mixed
  exact Finset.sum_congr rfl (fun j _ => div_mul_eq_mul_div (hc j))

/-! ## The softmax: a real row has a real maximum and a positive real denominator -/

/-- The maximum of a real-valued row of 1024 entries, taken from −∞, is a real. -/
theorem rowmax_real (a : Fin 1024 → EReal) (ha : ∀ j, ∃ r : ℝ, a j = (r : EReal)) :
    ∃ m : ℝ, rowmax a = (m : EReal) := by
  have key : ∀ s : Finset (Fin 1024), s.fold max ⊥ a = ⊥ ∨ ∃ m : ℝ, s.fold max ⊥ a = (m : EReal) := by
    intro s
    induction s using Finset.induction_on with
    | empty => left; simp
    | insert j s hj ih =>
      right
      obtain ⟨r, hr⟩ := ha j
      rw [Finset.fold_insert hj, hr]
      rcases ih with h | ⟨m, hm⟩
      · exact ⟨r, by rw [h, max_eq_left bot_le]⟩
      · rw [hm]
        rcases le_total r m with h | h
        · exact ⟨m, max_eq_right (EReal.coe_le_coe_iff.mpr h)⟩
        · exact ⟨r, max_eq_left (EReal.coe_le_coe_iff.mpr h)⟩
  unfold rowmax
  rw [negInf_eq]
  rcases key Finset.univ with h | h
  · exfalso
    obtain ⟨r, hr⟩ := ha 0
    have hle : (r : EReal) ≤ Finset.univ.fold max ⊥ a :=
      (Finset.le_fold_max _).mpr (Or.inr ⟨0, Finset.mem_univ _, hr ▸ le_rfl⟩)
    rw [h] at hle
    exact absurd hle (not_le.mpr (EReal.bot_lt_coe r))
  · exact h

/-- For a real-valued row of logits the normalised weights against arbitrary rows `M` sum to the unnormalised sum
    divided by the denominator: the denominator is a positive real, so its inverse is a nonnegative real and
    distributes over the sum whatever the `M j` are. -/
theorem outOfRef_eq_outOf (a : Fin 1024 → EReal) (M : Fin 1024 → EReal) (ha : ∀ j, ∃ r : ℝ, a j = (r : EReal)) :
    outOfRef a M = outOf a M := by
  obtain ⟨m, hm⟩ := rowmax_real a ha
  choose g hg using ha
  have hp : ∀ j, pexp a j = ((Real.exp (g j - m) : ℝ) : EReal) := by
    intro j
    unfold pexp
    rw [hg j, hm, ← EReal.coe_sub, Ideal.exp_coe]
  have hd : denom a = ((∑ j : Fin 1024, Real.exp (g j - m) : ℝ) : EReal) := by
    unfold denom
    rw [← coe_sum]
    exact Finset.sum_congr rfl (fun j _ => hp j)
  have hDpos : 0 < ∑ j : Fin 1024, Real.exp (g j - m) :=
    Finset.sum_pos (fun j _ => Real.exp_pos _) ⟨0, Finset.mem_univ _⟩
  unfold outOfRef outOf
  rw [hd, Ideal.div_coe hDpos.ne', mul_comm, nonneg_real_mul_sum _ _ (by positivity)]
  refine Finset.sum_congr rfl (fun j _ => ?_)
  rw [Ideal.div_coe hDpos.ne', mul_comm (pexp a j) _, mul_assoc]

/-! ## The two arrangements agree -/

/-- Where the projected inputs are finite and no column sum of √G is zero, the reference's arrangement
    ((s / c) · other, (p / d) · M, the logits divided by 16) and the kernel's (s · (other / c), (p · M) / d, the
    logits times 1/16) give the same entry. -/
theorem outRef_eq_out (main : Arr2 10000 256) (other : Arr2 1024 256) (fix : Arr2 4096 1024) (wq : Arr2 256 256) (bq : Arr1 256)
    (wk : Arr2 256 256) (bk : Arr1 256)
    (h0 : Finite main) (h1 : Finite other) (h3 : Finite wq) (h4 : Finite bq) (h5 : Finite wk) (h6 : Finite bk)
    (hc : ∀ j : Fin 1024, colsum fix j ≠ 0) (r : Fin 10000) (d : Fin 256) :
    outRef main other fix wq bq wk bk r d = out main other fix wq bq wk bk r d := by
  unfold outRef out
  rw [show logitRef main wq bq other wk bk r = logit main wq bq other wk bk r from
        funext (logitRef_eq_logit main wq bq other wk bk r),
      show (fun j => mixedRef fix other j d) = (fun j => mixed fix other j d) from
        funext (fun j => mixedRef_eq_mixed fix other hc j d)]
  exact outOfRef_eq_outOf _ _ (logit_real main wq bq other wk bk h0 h1 h3 h4 h5 h6 r)

end Cert.RefAlgebra

end
-- ==== Proof.PreDecode.lean ====
import proofs.«157675_g52209622450808_cont_9to1_m_767_6_alg».proof.Pre_finite_inputs
import proofs.«157675_g52209622450808_cont_9to1_m_767_6_alg».proof.Proof.Gen.Pre_finite_inputs
import proofs.«157675_g52209622450808_cont_9to1_m_767_6_alg».proof.Proof.Spec
import Idealize.ShloMosaic.PureOps.Ideal.Laws
import Idealize.ShloMosaic.Lib.ValueIdx
import Idealize.ShloMosaic.Lib.ReduceAll
import Idealize.ShloMosaic.Lib.Pipeline.Value

noncomputable section

namespace Cert.PreDecode

open Idealize.ShloMosaic Idealize.ShloMosaic.ValueIdx Cert.Spec

/-- The shape of rank zero has one index. -/
instance subsingleton_idx0 : Subsingleton (⟨0, ![]⟩ : Shape).Idx := ⟨fun a b => funext fun d => d.elim0⟩

/-- The f32 word of +∞ is the top of the extended reals. -/
theorem inf_word : Ideal.ofBits .f32 0x7F800000#32 = ⊤ := by simp [Ideal.ofBits, Ideal.ieee]

/-- An extended real whose absolute value max x (−x) is strictly below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- `all(|x| < +∞)` answering 1 says every entry of `x` is a real number. -/
theorem finite_of_all {S : Shape} {axes : List (Fin S.rank)}
    (hb : (⟨0, ![]⟩ : Shape).BroadcastsInDim S (![] : Fin 0 → Fin S.rank))
    (hr : S.ReducesTo axes ⟨0, ![]⟩) (hu : 0 < (⟨0, ![]⟩ : Shape).numel) (x : S.Idx → EReal)
    (e : Host.reduce IntOp.andi
          (cmpf .olt (Host.absf (F := Ideal) (φ := .f32) x)
            (broadcastInDim S ![] hb (constant (F := Ideal) ⟨0, ![]⟩ .f32 0x7F800000#32)))
          (constantI ⟨0, ![]⟩ 1 1#1) hr hu ix0 = 1#1) : Finite x := by
  intro i
  exact real_of_abs_lt_inf (x i) (Host.reduce_andi_all _ _ hr hu ix0 e i)

/-- A not-equal comparison answering 1 says the two extended reals differ. -/
theorem ne_of_cmp_une (x y : EReal) (h : Ideal.cmp .une x y = 1#1) : x ≠ y := by
  intro hxy
  simp [Ideal.cmp, hxy] at h

section Gram

open Cert.Pre_finite_inputs

variable [Cert.Pre_finite_inputs.Facts]

/-! The operand indices of the product fixᵀ · fix at output index `i` and contraction position `q`: the left operand is
read at (i 0, q), the right at (q, i 1). -/

theorem lhs_gram_0 (i : S1024x1024.Idx) (q : dot_S1024x4096_S4096x1024_S1024x1024_1_0_0_1_n_n.contr.Idx) :
    (dot_S1024x4096_S4096x1024_S1024x1024_1_0_0_1_n_n.lhsIdx i q 0).val = (i 0).val := by
  unfold DotDims.lhsIdx
  rw [dif_neg (show ¬(0 : Fin S1024x4096.rank) ∈ dot_S1024x4096_S4096x1024_S1024x1024_1_0_0_1_n_n.lhsBatch from List.not_mem_nil), dif_pos (show (0 : Fin S1024x4096.rank) ∈ dot_S1024x4096_S4096x1024_S1024x1024_1_0_0_1_n_n.lhsNonContracting from List.mem_singleton.2 rfl)]
  rfl
theorem lhs_gram_1 (i : S1024x1024.Idx) (q : dot_S1024x4096_S4096x1024_S1024x1024_1_0_0_1_n_n.contr.Idx) :
    (dot_S1024x4096_S4096x1024_S1024x1024_1_0_0_1_n_n.lhsIdx i q 1).val = (q ⟨0, Nat.one_pos⟩).val :=
  dot_S1024x4096_S4096x1024_S1024x1024_1_0_0_1_n_n.lhsIdx_val_of_single rfl i q
theorem rhs_gram_0 (i : S1024x1024.Idx) (q : dot_S1024x4096_S4096x1024_S1024x1024_1_0_0_1_n_n.contr.Idx) :
    (dot_S1024x4096_S4096x1024_S1024x1024_1_0_0_1_n_n.rhsIdx i q 0).val = (q ⟨0, Nat.one_pos⟩).val :=
  dot_S1024x4096_S4096x1024_S1024x1024_1_0_0_1_n_n.rhsIdx_val_of_single rfl i q
theorem rhs_gram_1 (i : S1024x1024.Idx) (q : dot_S1024x4096_S4096x1024_S1024x1024_1_0_0_1_n_n.contr.Idx) :
    (dot_S1024x4096_S4096x1024_S1024x1024_1_0_0_1_n_n.rhsIdx i q 1).val = (i 1).val := by
  unfold DotDims.rhsIdx
  rw [dif_neg (show ¬(1 : Fin S4096x1024.rank) ∈ dot_S1024x4096_S4096x1024_S1024x1024_1_0_0_1_n_n.rhsBatch from List.not_mem_nil), dif_pos (show (1 : Fin S4096x1024.rank) ∈ dot_S1024x4096_S4096x1024_S1024x1024_1_0_0_1_n_n.rhsNonContracting from List.mem_singleton.2 rfl)]
  rfl

/-- The transposed `fix` at (r, b) is `fix` at (b, r). -/
theorem transposed_read (a2 : Arr2 4096 1024) (r : Fin 1024) (b : Fin 4096) :
    transpose S1024x4096 [1, 0] a2 Facts.transposes_S4096x1024_S1024x4096_1_0 (ix2 r b) = a2 (ix2 b r) :=
  transpose_apply [1, 0] a2 Facts.transposes_S4096x1024_S1024x4096_1_0 (ix2 r b) (ix2 b r) (fun c => match c with
    | ⟨0, _⟩ => rfl
    | ⟨1, _⟩ => rfl)

/-- The product fixᵀ · fix at (i 0, i 1) is the Gram matrix entry: the sum over the 4096 rows b of fix (b, i 0) · fix (b, i 1). -/
theorem gram_read (a2 : Arr2 4096 1024) (i : S1024x1024.Idx) :
    Host.dotGeneral (F := Ideal) (φ₁ := .f32) (φ₂ := .f32) dot_S1024x4096_S4096x1024_S1024x1024_1_0_0_1_n_n none
      (transpose S1024x4096 [1, 0] a2 Facts.transposes_S4096x1024_S1024x4096_1_0) a2 i = gram a2 (i 0) (i 1) := by
  unfold gram
  simp only [Host.dotGeneral]
  rw [Ideal.dotGeneral_apply, ← Equiv.sum_comp (ValueIdx.contrEquiv1 dot_S1024x4096_S4096x1024_S1024x1024_1_0_0_1_n_n 4096 rfl rfl).symm]
  refine Finset.sum_congr rfl fun k _ => ?_
  have hk := ValueIdx.contrEquiv1_symm_val dot_S1024x4096_S4096x1024_S1024x1024_1_0_0_1_n_n 4096 rfl rfl k
  have el : dot_S1024x4096_S4096x1024_S1024x1024_1_0_0_1_n_n.lhsIdx i ((ValueIdx.contrEquiv1 dot_S1024x4096_S4096x1024_S1024x1024_1_0_0_1_n_n 4096 rfl rfl).symm k) = ix2 (n0 := 1024) (n1 := 4096) (i 0) k := funext fun a => Fin.ext (by
    match a with
    | ⟨0, _⟩ => exact lhs_gram_0 _ _
    | ⟨1, _⟩ => exact (lhs_gram_1 _ _).trans hk)
  have er : dot_S1024x4096_S4096x1024_S1024x1024_1_0_0_1_n_n.rhsIdx i ((ValueIdx.contrEquiv1 dot_S1024x4096_S4096x1024_S1024x1024_1_0_0_1_n_n 4096 rfl rfl).symm k) = ix2 (n0 := 4096) (n1 := 1024) k (i 1) := funext fun a => Fin.ext (by
    match a with
    | ⟨0, _⟩ => exact (rhs_gram_0 _ _).trans hk
    | ⟨1, _⟩ => exact rhs_gram_1 _ _)
  rw [el, er]
  exact congrArg (· * a2 (ix2 k (i 1))) (transposed_read a2 (i 0) k)

/-- The sum over axis 0 of the square-rooted product, from the zero word, at column j is the column sum of √G. -/
theorem colsum_read (a2 : Arr2 4096 1024) (j : Fin 1024) :
    Host.reduceAdd (F := Ideal) (φ := .f32)
      (Host.sqrt (F := Ideal) (φ := .f32) (Host.dotGeneral (F := Ideal) (φ₁ := .f32) (φ₂ := .f32) dot_S1024x4096_S4096x1024_S1024x1024_1_0_0_1_n_n none
        (transpose S1024x4096 [1, 0] a2 Facts.transposes_S4096x1024_S1024x4096_1_0) a2))
      (constant (F := Ideal) S_ .f32 0x00000000#32) Facts.reducesTo_S1024x1024_S1024_d0 Facts.h_S_ (ix1 j) = colsum a2 j := by
  have hR : S1024x1024.Reduces [0] S1024 := by decide
  unfold colsum Spec.sq
  simp only [Host.reduceAdd, Ideal.hostReduceAdd_def]
  rw [Ideal.hostReduceAdd_single Facts.reducesTo_S1024x1024_S1024_d0 hR, ValueIdx.constant_apply, Ideal.ofBits_zero_f32, zero_add]
  refine Finset.sum_congr rfl fun k _ => ?_
  simp only [Host.sqrt, Ideal.hostUnary_sqrt_def]
  rw [gram_read]
  -- the source index over column j with row k inserted is (k, j)
  have e0 : hR.lift (ix1 j) k 0 = k := Fin.ext rfl
  have e1 : hR.lift (ix1 j) k 1 = j := Fin.ext rfl
  rw [e0, e1]

/-- `all(colsum ≠ 0)` answering 1 says no column sum of √G is zero. -/
theorem colsum_ne_of_all (a2 : Arr2 4096 1024)
    (e : Host.reduce IntOp.andi
          (cmpf .une
            (Host.reduceAdd (F := Ideal) (φ := .f32)
              (Host.sqrt (F := Ideal) (φ := .f32) (Host.dotGeneral (F := Ideal) (φ₁ := .f32) (φ₂ := .f32) dot_S1024x4096_S4096x1024_S1024x1024_1_0_0_1_n_n none
                (transpose S1024x4096 [1, 0] a2 Facts.transposes_S4096x1024_S1024x4096_1_0) a2))
              (constant (F := Ideal) S_ .f32 0x00000000#32) Facts.reducesTo_S1024x1024_S1024_d0 Facts.h_S_)
            (broadcastInDim S1024 ![] Facts.bcast_S_S1024 (constant (F := Ideal) S_ .f32 0x00000000#32)))
          (constantI S_ 1 1#1) Facts.reducesTo_S1024_S_d0 Facts.h_S_ ix0 = 1#1) (j : Fin 1024) : colsum a2 j ≠ 0 := by
  have hj : Ideal.cmp .une
      (Host.reduceAdd (F := Ideal) (φ := .f32)
        (Host.sqrt (F := Ideal) (φ := .f32) (Host.dotGeneral (F := Ideal) (φ₁ := .f32) (φ₂ := .f32) dot_S1024x4096_S4096x1024_S1024x1024_1_0_0_1_n_n none
          (transpose S1024x4096 [1, 0] a2 Facts.transposes_S4096x1024_S1024x4096_1_0) a2))
        (constant (F := Ideal) S_ .f32 0x00000000#32) Facts.reducesTo_S1024x1024_S1024_d0 Facts.h_S_ (ix1 j))
      (Ideal.ofBits .f32 0x00000000#32) = 1#1 :=
    Host.reduce_andi_all _ _ Facts.reducesTo_S1024_S_d0 Facts.h_S_ ix0 e (ix1 j)
  rw [colsum_read, Ideal.ofBits_zero_f32] at hj
  exact ne_of_cmp_une _ _ hj

end Gram

/-- What the printed precondition says of the seven arguments at the extended reals: every entry of every argument is
    a real number, and no column sum of the square-rooted Gram matrix of `fix` is zero. -/
theorem decode [Cert.Pre_finite_inputs.Facts] (a0 : Arr2 10000 256) (a1 : Arr2 1024 256) (a2 : Arr2 4096 1024) (a3 : Arr2 256 256) (a4 : Arr1 256)
    (a5 : Arr2 256 256) (a6 : Arr1 256)
    (h : Cert.Pre_finite_inputs.fn (F := Ideal) a0 a1 a2 a3 a4 a5 a6 = fun _ => 1#1) :
    Finite a0 ∧ Finite a1 ∧ Finite a2 ∧ Finite a3 ∧ Finite a4 ∧ Finite a5 ∧ Finite a6 ∧ ∀ j : Fin 1024, colsum a2 j ≠ 0 := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨e0, e1⟩, e2⟩, e3⟩, e4⟩, e5⟩, e6⟩, e7⟩ := h0
  exact ⟨finite_of_all _ _ _ a0 e0, finite_of_all _ _ _ a1 e1, finite_of_all _ _ _ a2 e2, finite_of_all _ _ _ a3 e3,
    finite_of_all _ _ _ a4 e4, finite_of_all _ _ _ a5 e5, finite_of_all _ _ _ a6 e6, colsum_ne_of_all a2 e7⟩

end Cert.PreDecode

end
-- ==== Proof.lean ====
/-
  The certificate's claims assembled.

  Both programs compute, at the extended reals, one function of the seven arguments (Proof/Spec.lean): the attention of
  the projected query rows against the projected key rows, applied to the rows of `other` mixed by the column-normalised
  square root of `fix`'s Gram matrix. The kernel accumulates the Gram matrix over eight chunks of `fix`, divides the rows
  of `other` by the column sums before the product, scales the logits by 1/16 and divides by the softmax denominator
  after the last product; the reference sums the Gram matrix at once, normalises the columns of the square root first,
  divides the logits by 16 and normalises the softmax weights before the last product. The two agree where the projected
  inputs are finite (then the softmax denominator is a positive real, and a nonnegative real factor distributes over a
  sum of extended reals) and where no column sum of the square-rooted Gram matrix is zero (then both divisions by it are
  products with its inverse): RefAlgebra; the precondition says both (PreDecode).

  The kernel program's frame and run are over the library's several-regions launch with the first region's accumulator
  carried from one grid point to the next in the region's invariant (R0Runs, Region0, Region1, Run; the same text at the
  word-level program's namespace for its frame); the arrays the regions leave are read as values in R0Value, R1Value,
  Val0, Val1, Glue0, Boundary, KernelValue; the reference's run is read stage by stage in RefRead.
-/
import proofs.«157675_g52209622450808_cont_9to1_m_767_6_alg».proof.Defs
import proofs.«157675_g52209622450808_cont_9to1_m_767_6_alg».proof.Proof.Gen.Kernel
import proofs.«157675_g52209622450808_cont_9to1_m_767_6_alg».proof.Proof.Gen.KernelIdeal
import proofs.«157675_g52209622450808_cont_9to1_m_767_6_alg».proof.Proof.Gen.ReferenceIdeal
import proofs.«157675_g52209622450808_cont_9to1_m_767_6_alg».proof.Proof.Gen.Pre_finite_inputs
import proofs.«157675_g52209622450808_cont_9to1_m_767_6_alg».proof.Proof.Gen.ReferenceIdeal.Run
import proofs.«157675_g52209622450808_cont_9to1_m_767_6_alg».proof.Proof.Gen.ReferenceIdeal.Read
import proofs.«157675_g52209622450808_cont_9to1_m_767_6_alg».proof.Proof.BitsRun
import proofs.«157675_g52209622450808_cont_9to1_m_767_6_alg».proof.Proof.Run
import proofs.«157675_g52209622450808_cont_9to1_m_767_6_alg».proof.Proof.KernelValue
import proofs.«157675_g52209622450808_cont_9to1_m_767_6_alg».proof.Proof.RefRead
import proofs.«157675_g52209622450808_cont_9to1_m_767_6_alg».proof.Proof.RefAlgebra
import proofs.«157675_g52209622450808_cont_9to1_m_767_6_alg».proof.Proof.PreDecode
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_p : Cert.frame_Kernel := fun m ρ _ => Cert.Kernel.Hand.frame (F := Bits) m ρ

/-- So does the idealized kernel. -/
theorem frame_pi : Cert.frame_KernelIdeal := fun m ρ _ => Cert.KernelIdeal.Hand.frame (F := Ideal) m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments the two idealized programs end with equal results: the kernel's output array
    is the specification entry by entry (KernelValue), the reference's result stage is the reference's arrangement of it
    (RefRead), and the two arrangements agree under what the precondition says (PreDecode, RefAlgebra). -/
theorem algebraic : Cert.algebraic_KernelIdeal_ReferenceIdeal := by
  intro m ρ m' ρ' hpre hagree
  refine ⟨fun c => (Cert.KernelIdeal.Hand.dat1 (F := Ideal) (Cert.KernelIdeal.Hand.U2 m ρ) c).arrAt 5 Cert.KernelIdeal.cfg1.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2.1, (hagree c).2.2.2.2.2.2]
  obtain ⟨h0, h1, _, h3, h4, h5, h6, hc⟩ := Cert.PreDecode.decode _ _ _ _ _ _ _ (hpre c)
  funext i
  obtain ⟨r, d, rfl⟩ : ∃ (r : Fin 10000) (d : Fin 256), i = ix2 r d := ⟨i 0, i 1, eq_ix2 i⟩
  rw [Cert.RefRead.val_out_apply, Cert.RefAlgebra.outRef_eq_out _ _ _ _ _ _ _ h0 h1 h3 h4 h5 h6 hc]
  exact (Cert.KernelIdeal.Hand.kernel_result_apply m ρ c r d).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
